-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x524288x1 : Shape := ⟨3, ![64, 524288, 1]⟩
abbrev S_ : Shape := ⟨0, ![]⟩

class Facts : Prop where
  bcast_S_S64x524288x1 : S_.BroadcastsInDim S64x524288x1 (![] : Fin 0 → Fin S64x524288x1.rank)
  reducesTo_S64x524288x1_S_d0_1_2 : S64x524288x1.ReducesTo [0, 1, 2] S_
  h_S_ : 0 < S_.numel

variable [Facts]

def fn {F : FTy → Type} [FloatOps F] (main_arg0 : FVec F S64x524288x1 .f32) (main_arg1 : FVec F S64x524288x1 .f32) : IVec S_ 1 :=
  let main_v0 : FVec F S64x524288x1 .f32 := Host.absf main_arg0
  let main_cst : FVec F S_ .f32 := constant S_ .f32 0x7F800000#32
  let main_v1 : FVec F S64x524288x1 .f32 := broadcastInDim S64x524288x1 ![] bcast_S_S64x524288x1 main_cst
  let main_v2 : IVec S64x524288x1 1 := cmpf .olt main_v0 main_v1
  let main_c : IVec S_ 1 := constantI S_ 1 1#1
  let main_v3 : IVec S_ 1 := (fun x v => Host.reduce IntOp.andi x v reducesTo_S64x524288x1_S_d0_1_2 h_S_) main_v2 main_c
  let main_v4 : FVec F S64x524288x1 .f32 := Host.absf main_arg1
  let main_cst_0 : FVec F S_ .f32 := constant S_ .f32 0x7F800000#32
  let main_v5 : FVec F S64x524288x1 .f32 := broadcastInDim S64x524288x1 ![] bcast_S_S64x524288x1 main_cst_0
  let main_v6 : IVec S64x524288x1 1 := cmpf .olt main_v4 main_v5
  let main_c_1 : IVec S_ 1 := constantI S_ 1 1#1
  let main_v7 : IVec S_ 1 := (fun x v => Host.reduce IntOp.andi x v reducesTo_S64x524288x1_S_d0_1_2 h_S_) main_v6 main_c_1
  let main_v8 : IVec S_ 1 := andi main_v3 main_v7
  main_v8
-- ==== Kernel.lean ====
abbrev S64x524288x1 : Shape := ⟨3, ![64, 524288, 1]⟩
abbrev S64x524288 : Shape := ⟨2, ![64, 524288]⟩
abbrev S64x64 : Shape := ⟨2, ![64, 64]⟩
abbrev S32x1024 : Shape := ⟨2, ![32, 1024]⟩
abbrev S32x64 : Shape := ⟨2, ![32, 64]⟩
abbrev S32x1024x64 : Shape := ⟨3, ![32, 1024, 64]⟩
abbrev S32x1024x1 : Shape := ⟨3, ![32, 1024, 1]⟩
abbrev S_ : Shape := ⟨0, ![]⟩
abbrev S1x1 : Shape := ⟨2, ![1, 1]⟩
abbrev S64x512 : Shape := ⟨2, ![64, 512]⟩
abbrev S64x512x64 : Shape := ⟨3, ![64, 512, 64]⟩
abbrev S64x512x1 : Shape := ⟨3, ![64, 512, 1]⟩
abbrev S64x1x64 : Shape := ⟨3, ![64, 1, 64]⟩
abbrev S64 : Shape := ⟨1, ![64]⟩
abbrev S64x1 : Shape := ⟨2, ![64, 1]⟩
abbrev S1 : Shape := ⟨1, ![1]⟩

abbrev nBuf : Space → Nat
  | .hbm => 21
  | .vmem => 11
  | .smem => 0
  | _ => 0

abbrev bufTy : (tb : Table) → Fin (tcTables nBuf tb) → BufTy
  | .hbm, ⟨0, _⟩ => ⟨S64x524288x1, .f32⟩
  | .hbm, ⟨1, _⟩ => ⟨S64x524288x1, .f32⟩
  | .hbm, ⟨2, _⟩ => ⟨S64x524288, .f32⟩
  | .hbm, ⟨3, _⟩ => ⟨S64x524288, .f32⟩
  | .hbm, ⟨4, _⟩ => ⟨S64x64, .f32⟩
  | .hbm, ⟨5, _⟩ => ⟨S_, .f32⟩
  | .hbm, ⟨6, _⟩ => ⟨S64x64, .f32⟩
  | .hbm, ⟨7, _⟩ => ⟨S64x64, .i1⟩
  | .hbm, ⟨8, _⟩ => ⟨S_, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S1x1, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S32x1024, .f32⟩
  | .local _ .vmem, ⟨1, _⟩ => ⟨S32x1024, .f32⟩
  | .local _ .vmem, ⟨2, _⟩ => ⟨S32x64, .f32⟩
  | .local _ .vmem, ⟨3, _⟩ => ⟨S32x64, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x64, .f32⟩
  | .local _ .vmem, ⟨9, _⟩ => ⟨S1x1, .f32⟩
  | .local _ .vmem, ⟨10, _⟩ => ⟨S1x1, .f32⟩
  | _, _ => ⟨S64x524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10

abbrev nD : Nat := 1
abbrev τ : Topo := Topo.v7x

variable {F : FTy → Type} [FloatOps F]

abbrev grid0 : Pipeline.Grid := ⟨2, ![2, 512], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![1024], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S64x524288x1_S64x524288 : S64x524288x1.ShapeCasts S64x524288
  inb_S32x64_S32x64_0_0 : ∀ a, (![0, 0] : Fin 2 → Nat) a + S32x64.size a ≤ S32x64.size a
  h_S32x64 : 0 < S32x64.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  iota_S32x1024x64_d2_w32 : S32x1024x64.Iotas .tc 32 [2]
  shapeCasts_S32x1024_S32x1024x1 : S32x1024.ShapeCasts S32x1024x1
  broadcasts_S32x1024x1_S32x1024x64 : S32x1024x1.Broadcasts S32x1024x64
  natLt_1_32 : 1 < 32
  shapeCasts_S32x64_S32x64 : S32x64.ShapeCasts S32x64
  reduces_S32x1024x64_S32x64 : S32x1024x64.Reduces [1] S32x64
  bcast_S_S64x64 : S_.BroadcastsInDim S64x64 (![] : Fin 0 → Fin S64x64.rank)
  inb_S1x1_S1x1_0_0 : ∀ a, (![0, 0] : Fin 2 → Nat) a + S1x1.size a ≤ S1x1.size a
  h_S1x1 : 0 < S1x1.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x64_S64x64_0_0 : ∀ a, (![0, 0] : Fin 2 → Nat) a + S64x64.size a ≤ S64x64.size a
  h_S64x64 : 0 < S64x64.numel
  shapeCasts_S64x64_S64x64 : S64x64.ShapeCasts S64x64
  iota_S64x512x64_d2_w32 : S64x512x64.Iotas .tc 32 [2]
  shapeCasts_S64x512_S64x512x1 : S64x512.ShapeCasts S64x512x1
  broadcasts_S64x512x1_S64x512x64 : S64x512x1.Broadcasts S64x512x64
  shapeCasts_S64x64_S64x1x64 : S64x64.ShapeCasts S64x1x64
  broadcasts_S64x1x64_S64x512x64 : S64x1x64.Broadcasts S64x512x64
  reduces_S64x512x64_S64x512 : S64x512x64.Reduces [2] S64x512
  reduces_S64x512_S64 : S64x512.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S64x524288.size a
  hwx0_0 : ∀ i : grid0.Coords, EltTy.bits .f32 = 32 ∨ (Rect.block (s := S64x524288) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S64x64.size a
  hwx0_1 : ∀ i : grid0.Coords, EltTy.bits .f32 = 32 ∨ (Rect.block (s := S64x64) S32x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512.size a ≤ S64x524288.size a
  hwx1_0 : ∀ i : grid1.Coords, EltTy.bits .f32 = 32 ∨ (Rect.block (s := S64x524288) S64x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x512.size a ≤ S64x524288.size a
  hwx1_1 : ∀ i : grid1.Coords, EltTy.bits .f32 = 32 ∨ (Rect.block (s := S64x524288) S64x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

abbrev win0_0 : Pipeline.Window sig grid0 :=
  Pipeline.Window.ofSpec (Memref.whole main_v1) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S64x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S64x524288x1 : Shape := ⟨3, ![64, 524288, 1]⟩
abbrev S_ : Shape := ⟨0, ![]⟩
abbrev S64x524288 : Shape := ⟨2, ![64, 524288]⟩
abbrev S64 : Shape := ⟨1, ![64]⟩
abbrev S64x1 : Shape := ⟨2, ![64, 1]⟩
abbrev S64x64 : Shape := ⟨2, ![64, 64]⟩
abbrev S64x524288x2 : Shape := ⟨3, ![64, 524288, 2]⟩

abbrev nBuf : Space → Nat
  | .hbm => 74
  | .vmem => 0
  | .smem => 0
  | _ => 0

abbrev bufTy : (tb : Table) → Fin (tcTables nBuf tb) → BufTy
  | .hbm, ⟨0, _⟩ => ⟨S64x524288x1, .f32⟩
  | .hbm, ⟨1, _⟩ => ⟨S64x524288x1, .f32⟩
  | .hbm, ⟨2, _⟩ => ⟨S64x524288x1, .f32⟩
  | .hbm, ⟨3, _⟩ => ⟨S_, .f32⟩
  | .hbm, ⟨4, _⟩ => ⟨S64x524288x1, .f32⟩
  | .hbm, ⟨5, _⟩ => ⟨S64x524288x1, .f32⟩
  | .hbm, ⟨6, _⟩ => ⟨S64x524288x1, .f32⟩
  | .hbm, ⟨7, _⟩ => ⟨S64x524288x1, .f32⟩
  | .hbm, ⟨8, _⟩ => ⟨S64x524288, .f32⟩
  | .hbm, ⟨9, _⟩ => ⟨S64x524288, .f32⟩
  | .hbm, ⟨10, _⟩ => ⟨S64x524288, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x524288, .i32⟩
  | .hbm, ⟨15, _⟩ => ⟨S64x524288, .i32⟩
  | .hbm, ⟨16, _⟩ => ⟨S_, .i32⟩
  | .hbm, ⟨17, _⟩ => ⟨S64x524288, .i32⟩
  | .hbm, ⟨18, _⟩ => ⟨S64x524288, .i32⟩
  | .hbm, ⟨19, _⟩ => ⟨S64, .i32⟩
  | .hbm, ⟨20, _⟩ => ⟨S64x1, .i32⟩
  | .hbm, ⟨21, _⟩ => ⟨S_, .f32⟩
  | .hbm, ⟨22, _⟩ => ⟨S64x64, .f32⟩
  | .hbm, ⟨23, _⟩ => ⟨S_, .i32⟩
  | .hbm, ⟨24, _⟩ => ⟨S64x1, .i32⟩
  | .hbm, ⟨25, _⟩ => ⟨S64x1, .i1⟩
  | .hbm, ⟨26, _⟩ => ⟨S_, .i32⟩
  | .hbm, ⟨27, _⟩ => ⟨S64x1, .i32⟩
  | .hbm, ⟨28, _⟩ => ⟨S64x1, .i32⟩
  | .hbm, ⟨29, _⟩ => ⟨S64x1, .i32⟩
  | .hbm, ⟨30, _⟩ => ⟨S_, .i32⟩
  | .hbm, ⟨31, _⟩ => ⟨S64x524288, .i32⟩
  | .hbm, ⟨32, _⟩ => ⟨S64x524288, .i1⟩
  | .hbm, ⟨33, _⟩ => ⟨S_, .i32⟩
  | .hbm, ⟨34, _⟩ => ⟨S64x524288, .i32⟩
  | .hbm, ⟨35, _⟩ => ⟨S64x524288, .i32⟩
  | .hbm, ⟨36, _⟩ => ⟨S64x524288, .i32⟩
  | .hbm, ⟨37, _⟩ => ⟨S64x524288, .i32⟩
  | .hbm, ⟨38, _⟩ => ⟨S64x524288x1, .i32⟩
  | .hbm, ⟨39, _⟩ => ⟨S64x524288x1, .i32⟩
  | .hbm, ⟨40, _⟩ => ⟨S64x524288x2, .i32⟩
  | .hbm, ⟨41, _⟩ => ⟨S_, .f32⟩
  | .hbm, ⟨42, _⟩ => ⟨S64x524288, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S_, .i32⟩
  | .hbm, ⟨48, _⟩ => ⟨S64x1, .i32⟩
  | .hbm, ⟨49, _⟩ => ⟨S64x1, .i1⟩
  | .hbm, ⟨50, _⟩ => ⟨S_, .i32⟩
  | .hbm, ⟨51, _⟩ => ⟨S64x1, .i32⟩
  | .hbm, ⟨52, _⟩ => ⟨S64x1, .i32⟩
  | .hbm, ⟨53, _⟩ => ⟨S64x1, .i32⟩
  | .hbm, ⟨54, _⟩ => ⟨S_, .i32⟩
  | .hbm, ⟨55, _⟩ => ⟨S64x524288, .i32⟩
  | .hbm, ⟨56, _⟩ => ⟨S64x524288, .i1⟩
  | .hbm, ⟨57, _⟩ => ⟨S_, .i32⟩
  | .hbm, ⟨58, _⟩ => ⟨S64x524288, .i32⟩
  | .hbm, ⟨59, _⟩ => ⟨S64x524288, .i32⟩
  | .hbm, ⟨60, _⟩ => ⟨S64x524288, .i32⟩
  | .hbm, ⟨61, _⟩ => ⟨S64x524288, .i32⟩
  | .hbm, ⟨62, _⟩ => ⟨S64x524288x1, .i32⟩
  | .hbm, ⟨63, _⟩ => ⟨S64x524288x1, .i32⟩
  | .hbm, ⟨64, _⟩ => ⟨S64x524288x2, .i32⟩
  | .hbm, ⟨65, _⟩ => ⟨S64x524288, .f32⟩
  | .hbm, ⟨66, _⟩ => ⟨S64x524288x1, .f32⟩
  | .hbm, ⟨67, _⟩ => ⟨S64x524288x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S64x524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_10 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S64x524288x1 : S_.BroadcastsInDim S64x524288x1 (![] : Fin 0 → Fin S64x524288x1.rank)
  shapeCasts_S64x524288x1_S64x524288 : S64x524288x1.ShapeCasts S64x524288
  bcast_S_S64x524288 : S_.BroadcastsInDim S64x524288 (![] : Fin 0 → Fin S64x524288.rank)
  bcast_S64_S64x1_0 : S64.BroadcastsInDim S64x1 (![0] : Fin 1 → Fin S64x1.rank)
  bcast_S_S64x64 : S_.BroadcastsInDim S64x64 (![] : Fin 0 → Fin S64x64.rank)
  bcast_S_S64x1 : S_.BroadcastsInDim S64x1 (![] : Fin 0 → Fin S64x1.rank)
  bcast_S64x1_S64x524288_0_1 : S64x1.BroadcastsInDim S64x524288 (![0, 1] : Fin 2 → Fin S64x524288.rank)
  bcast_S64x524288_S64x524288x1_0_1 : S64x524288.BroadcastsInDim S64x524288x1 (![0, 1] : Fin 2 → Fin S64x524288x1.rank)
  concatenates_S64x524288x1_S64x524288x1_S64x524288x2_d2 : Shape.Concatenates [S64x524288x1, S64x524288x1] S64x524288x2 2
  reducesTo_S64x524288x1_S_d0_1_2 : S64x524288x1.ReducesTo [0, 1, 2] S_
  h_S_ : 0 < S_.numel
  scatter_S64x64_S64x524288x2_S64x524288_n_01_01_2_wf : ScatterDims.WF S64x64 S64x524288x2 S64x524288 [] [0, 1] [0, 1] 2
  gather_S64x64_S64x524288x2_S64x524288_n_01_n_n_01_2_11_wf : GatherDims.WF S64x64 S64x524288x2 S64x524288 [] [0, 1] [] [0, 1] [] 2 ![1, 1]

variable [Facts₀]

def scatter_S64x64_S64x524288x2_S64x524288_n_01_01_2 : ScatterDims S64x64 S64x524288x2 S64x524288 where
  updateWindowDims := []
  insertedWindowDims := [0, 1]
  scatterDimsToOperandDims := [0, 1]
  indexVectorDim := 2
  wf := scatter_S64x64_S64x524288x2_S64x524288_n_01_01_2_wf
def gather_S64x64_S64x524288x2_S64x524288_n_01_n_n_01_2_11 : GatherDims S64x64 S64x524288x2 S64x524288 where
  offsetDims := []
  collapsedSliceDims := [0, 1]
  operandBatchingDims := []
  startIndicesBatchingDims := []
  startIndexMap := [0, 1]
  indexVectorDim := 2
  sliceSizes := ![1, 1]
  wf := gather_S64x64_S64x524288x2_S64x524288_n_01_n_n_01_2_11_wf

class Facts : Prop extends Facts₀ where

variable [Facts]
-- ==== Proof.Spec.lean ====
/-
  The decade-weighted loss, as mathematics over the extended reals.

  A target value x has a decade: the integer part of max(|x|, eps), cut into the range 0 … 63.  For each batch row
  b the histogram counts, bin by bin, how many of the row's 524288 targets have that decade.  A sample's weight is
  the reciprocal of its own bin's count (never the reciprocal of zero: the sample itself is counted).  The loss is
  the square root of the weighted mean of the squared errors: the sum of (p - y)² · w over all samples, divided by
  the sum of the weights.

  Both programs compute exactly this; they differ in how they reach the counts (one-hot rows summed tile by tile
  against a scatter-add), in how they look a weight up (a one-hot row times the table of reciprocals, summed over the
  bins, against a gather), and in the order of the two big sums.  This module states the quantities once, with the
  one-hot entry `hit` as the common currency, and proves the facts about a single sample that join the two forms.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Decade

open Idealize.ShloMosaic Idealize.ShloMosaic.ValueIdx

/-- The two-axis view of an array with a trailing unit axis. -/
def flat (X : (⟨3, ![64, 524288, 1]⟩ : Shape).Idx → EReal) : (⟨2, ![64, 524288]⟩ : Shape).Idx → EReal :=
  fun i => X (ix3 (i 0) (i 1) (0 : Fin 1))

/-- The decade of a target as a 32-bit word: floor of max(|x|, eps), converted to an integer, cut to 0 … 63. -/
def dword (x : Ideal .f32) : BitVec 32 :=
  IntOp.minsi 63#32 (IntOp.maxsi 0#32 (FloatOps.fptosi 32
    (FloatOps.floor (FloatOps.maximumf (FloatOps.absf x) (FloatOps.ofBits .f32 0x34000000#32)))))

/-- The cut leaves a word between 0 and 63. -/
theorem dword_lt (x : Ideal .f32) : (dword x).toNat < 64 := by
  unfold dword
  generalize FloatOps.fptosi 32
    (FloatOps.floor (FloatOps.maximumf (FloatOps.absf x) (FloatOps.ofBits .f32 0x34000000#32))) = v
  -- the larger of 0 and v is not negative
  have hm : 0 ≤ (IntOp.maxsi 0#32 v).toInt := by
    unfold IntOp.maxsi
    by_cases h : v.slt 0#32
    · rw [if_pos h]; decide
    · rw [if_neg h]
      unfold BitVec.slt at h
      rw [decide_eq_true_eq] at h
      have : (0#32).toInt = 0 := by decide
      omega
  generalize IntOp.maxsi 0#32 v = m at hm
  -- the smaller of 63 and a non-negative m is 63, or m itself with m ≤ 63
  unfold IntOp.minsi
  by_cases h : (63#32).slt m
  · rw [if_pos h]; decide
  · rw [if_neg h]
    unfold BitVec.slt at h
    rw [decide_eq_true_eq] at h
    have h63 : (63#32).toInt = 63 := by decide
    have hlt := m.isLt
    rw [h63] at h
    have hc := BitVec.toInt_eq_toNat_cond m
    split at hc <;> omega

/-- Read signed, the decade word is its unsigned value. -/
theorem dword_toInt (x : Ideal .f32) : (dword x).toInt = ((dword x).toNat : ℤ) := by
  have h := dword_lt x
  rw [BitVec.toInt_eq_toNat_of_lt (by omega)]

/-- The decade as a bin number. -/
def bin (x : Ideal .f32) : Fin 64 := ⟨(dword x).toNat, dword_lt x⟩

/-- The one-hot entry of a target at a bin: the comparison of the decade word with the bin's word, widened and
    converted to a float. -/
def hit (x : Ideal .f32) (n : Fin 64) : Ideal .f32 :=
  FloatOps.sitofp .f32 ((IntOp.cmpi .eq (dword x) (BitVec.ofNat 32 n.val)).setWidth 32)

/-- It is one at the target's own bin and zero elsewhere. -/
theorem hit_eq (x : Ideal .f32) (n : Fin 64) : hit x n = if bin x = n then 1 else 0 := by
  have hx := dword_lt x
  have hn := n.isLt
  -- the comparison is a one-bit word; widened and read signed it is 1 or 0
  show ((((BitVec.ofBool (dword x == BitVec.ofNat 32 n.val)).setWidth 32).toInt : ℝ) : EReal) = _
  by_cases h : bin x = n
  · rw [if_pos h]
    have hb : (dword x == BitVec.ofNat 32 n.val) = true := by
      rw [beq_iff_eq]
      apply BitVec.eq_of_toNat_eq
      rw [BitVec.toNat_ofNat, Nat.mod_eq_of_lt (by omega)]
      exact congrArg Fin.val h
    rw [hb]
    have h1 : ((BitVec.ofBool true).setWidth 32).toInt = 1 := by decide
    rw [h1]; simp
  · rw [if_neg h]
    have hb : (dword x == BitVec.ofNat 32 n.val) = false := by
      rw [beq_eq_false_iff_ne]
      intro e
      apply h
      apply Fin.ext
      show (dword x).toNat = n.val
      rw [e, BitVec.toNat_ofNat, Nat.mod_eq_of_lt (by omega)]
    rw [hb]
    have h0 : ((BitVec.ofBool false).setWidth 32).toInt = 0 := by decide
    rw [h0]; simp

/-- The histogram of row b at bin n: how many of the row's targets have decade n. -/
def hist (Y : (⟨2, ![64, 524288]⟩ : Shape).Idx → EReal) (b n : Fin 64) : EReal :=
  ∑ t : Fin 524288, hit (Y (ix2 b t)) n

/-- The guarded reciprocal of a count: 1 / h where h > 0, else 0. -/
def invc (h : Ideal .f32) : Ideal .f32 :=
  Scalar.select (FloatOps.cmpf .ogt h (FloatOps.ofBits .f32 0x00000000#32))
    (FloatOps.hostDivf (FloatOps.ofBits .f32 0x3F800000#32) h) (FloatOps.ofBits .f32 0x00000000#32)

/-- A sample's weight through a table IC of per-bin values: its one-hot row times the table's row, summed over bins. -/
def wgt (Y : (⟨2, ![64, 524288]⟩ : Shape).Idx → EReal) (IC : Fin 64 → Fin 64 → EReal) (b : Fin 64) (t : Fin 524288) : EReal :=
  ∑ n : Fin 64, hit (Y (ix2 b t)) n * IC b n

/-- The squared error of a sample. -/
def sqerr (P Y : (⟨2, ![64, 524288]⟩ : Shape).Idx → EReal) (b : Fin 64) (t : Fin 524288) : EReal :=
  (P (ix2 b t) - Y (ix2 b t)) * (P (ix2 b t) - Y (ix2 b t))

/-- The weighted sum of squared errors, through a table of per-bin values. -/
def num (P Y : (⟨2, ![64, 524288]⟩ : Shape).Idx → EReal) (IC : Fin 64 → Fin 64 → EReal) : EReal :=
  ∑ b : Fin 64, ∑ t : Fin 524288, sqerr P Y b t * wgt Y IC b t

/-- The sum of the weights. -/
def den (Y : (⟨2, ![64, 524288]⟩ : Shape).Idx → EReal) (IC : Fin 64 → Fin 64 → EReal) : EReal :=
  ∑ b : Fin 64, ∑ t : Fin 524288, wgt Y IC b t

/-- The table of guarded reciprocal counts. -/
def itab (Y : (⟨2, ![64, 524288]⟩ : Shape).Idx → EReal) : Fin 64 → Fin 64 → EReal :=
  fun b n => invc (hist Y b n)

/-- The loss: the root of the weighted mean. -/
def loss (P Y : (⟨2, ![64, 524288]⟩ : Shape).Idx → EReal) : Ideal .f32 :=
  FloatOps.hostUnary (F := Ideal) (φ := .f32) .sqrt (FloatOps.hostDivf (F := Ideal) (φ := .f32) (num P Y (itab Y)) (den Y (itab Y)))

/-- A one-hot row times a table row, summed, is the table's entry at the sample's own bin. -/
theorem wgt_eq (Y : (⟨2, ![64, 524288]⟩ : Shape).Idx → EReal) (IC : Fin 64 → Fin 64 → EReal) (b : Fin 64) (t : Fin 524288) :
    wgt Y IC b t = IC b (bin (Y (ix2 b t))) := by
  unfold wgt
  simp only [hit_eq, ite_mul, one_mul, zero_mul, Finset.sum_ite_eq, Finset.mem_univ, if_true]

/-- Where the count is positive the guarded reciprocal is the plain one. -/
theorem invc_of_pos (h : Ideal .f32) (hpos : (0 : EReal) < h) :
    invc h = FloatOps.hostDivf (F := Ideal) (φ := .f32) (FloatOps.ofBits .f32 0x3F800000#32) h := by
  have hc : FloatOps.cmpf (F := Ideal) (φ := .f32) .ogt h (FloatOps.ofBits .f32 0x00000000#32) = 1#1 := by
    show BitVec.ofBool (decide (Ideal.ofBits .f32 0x00000000#32 < h)) = 1#1
    rw [Ideal.ofBits_zero_f32, decide_eq_true hpos]
    rfl
  unfold invc
  rw [hc]
  exact if_pos rfl

/-- The count of a sample's own bin is at least one, so its guarded reciprocal is the plain one. -/
theorem itab_own (Y : (⟨2, ![64, 524288]⟩ : Shape).Idx → EReal) (b : Fin 64) (t : Fin 524288) :
    itab Y b (bin (Y (ix2 b t)))
      = FloatOps.hostDivf (F := Ideal) (φ := .f32) (FloatOps.ofBits .f32 0x3F800000#32) (hist Y b (bin (Y (ix2 b t)))) := by
  -- the count is a sum of indicators, none negative, and the sample's own indicator is one
  have hpos : (0 : EReal) < hist Y b (bin (Y (ix2 b t))) := by
    unfold hist
    simp only [hit_eq]
    have h1 := Finset.single_le_sum
      (f := fun t' : Fin 524288 => (if bin (Y (ix2 b t')) = bin (Y (ix2 b t)) then (1 : EReal) else 0))
      (s := Finset.univ) (fun i _ => by split <;> simp) (Finset.mem_univ t)
    rw [if_pos rfl] at h1
    exact zero_lt_one.trans_le h1
  -- so the guard "count > 0" holds and the select takes the quotient
  exact invc_of_pos _ hpos

/-- The histogram as a sum of indicators. -/
theorem hist_eq (Y : (⟨2, ![64, 524288]⟩ : Shape).Idx → EReal) (b n : Fin 64) :
    hist Y b n = ∑ t : Fin 524288, (if bin (Y (ix2 b t)) = n then (1 : EReal) else 0) := by
  unfold hist; simp only [hit_eq]

end Cert.Decade

end
-- ==== Proof.HistBody.lean ====
/-
  The histogram kernel's body as values.  At the first tile of a row block the body stores a block of zeros and then
  adds the tile's one-hot row sums to it; at every later tile it adds them to what the tile before left.  Read at an
  entry (row r of the block, bin n) the addend is the number of the tile's 1024 targets of row r whose decade is n,
  written as the sum of the one-hot entries.
-/
import proofs.«128547_j60421599920187_1_alg».proof.Proof.Gen.KernelIdeal.Frame
import proofs.«128547_j60421599920187_1_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx

namespace Cert.KernelIdeal.Hist

open Cert.KernelIdeal Cert.KernelIdeal.Gen Cert.Decade

variable {F : FTy → Type} [FloatOps F]

/-- First tile of a row block: zeros, then the tile's counts added. -/
theorem out_A (c : Dev nD) (i : grid0.Coords) (a2 : Memref sig .tc .vmem S32x1024 .f32) (h2 : a2.IsWhole)
    (a3 : Memref sig .tc .vmem S32x64 .f32) (h3 : a3.IsWhole) (hc : cond0_0 i) (x : Vec F S32x1024 .f32) :
    out0_A_1 c i a2 h2 a3 h3 hc x = k0_pay2 x (k0_pay1 (F := F)) := by
  have hz : (![0, 0] : Fin 2 → Nat) = fun _ => 0 := by funext j; fin_cases j <;> rfl
  -- the later store covers the block, so the contents are its payload; its accumulator operand is the block read
  -- back after the store of zeros, which is the zeros
  unfold out0_A_1
  rw [View.read_writes_eq_canon _ _ _ (cover0_A_1 c i a2 h2 a3 h3 hc x)]
  unfold kernelRun0_A
  dsimp only
  sl_unfold_words
  rw [View.canon_cons_unit_zero (S := S32x64) hz]
  simp only [View.readAt_eq_ld, h2.read_unread, h3.read_unread, View.ld_unit_zero (S := S32x1024) hz,
    View.ld_unit_zero (S := S32x64) hz, View.readCov_unit_zero (S := S32x64) _ hz]

/-- A later tile: the tile's counts added to what the tile before left. -/
theorem out_B (c : Dev nD) (i : grid0.Coords) (a2 : Memref sig .tc .vmem S32x1024 .f32) (h2 : a2.IsWhole)
    (a3 : Memref sig .tc .vmem S32x64 .f32) (h3 : a3.IsWhole) (hc : ¬cond0_0 i) (x : Vec F S32x1024 .f32)
    (xo : Vec F S32x64 .f32) :
    out0_B_1 c i a2 h2 a3 h3 hc x xo = k0_pay2 x xo := by
  have hz : (![0, 0] : Fin 2 → Nat) = fun _ => 0 := by funext j; fin_cases j <;> rfl
  -- one store covering the block: the contents are its payload, at the tile and the block as loaded
  unfold out0_B_1
  rw [View.read_writes_eq_canon _ _ _ (cover0_B_1 c i a2 h2 a3 h3 hc x xo)]
  unfold kernelRun0_B
  dsimp only
  sl_unfold_words
  rw [View.canon_unit_zero hz]
  simp only [View.readAt_eq_ld, h2.read_unread, h3.read_unread, View.ld_unit_zero (S := S32x1024) hz,
    View.ld_unit_zero (S := S32x64) hz]

/-- The block of zeros. -/
theorem pay1_apply (j : S32x64.Idx) : (k0_pay1 (F := Ideal)) j = 0 := by
  -- a splat of the float whose bits are all zero, which is the extended real 0
  unfold k0_pay1
  show (Scalar.ofBits (F := Ideal) .f32 0x00000000#32) = 0
  exact Ideal.ofBits_zero_f32

/-- A vector of per-target words, given a trailing unit axis and spread along a new last axis, reads at (r, l, n)
    the word of target (r, l): the two index sets have the same row-major positions. -/
private theorem spread_apply (v : IVec S32x1024 32) (r : Fin 32) (l : Fin 1024) (j : S32x1024x64.Idx)
    (h0 : (j 0).val = r.val) (h1 : (j 1).val = l.val) :
    broadcastTo S32x1024x64 (shapeCast S32x1024x1 v shapeCasts_S32x1024_S32x1024x1)
      broadcasts_S32x1024x1_S32x1024x64 j = v (ix2 r l) := by
  refine (broadcastTo_apply _ _ j (ix3 r l (0 : Fin 1)) ?_).trans ?_
  · intro a
    match a with
    | ⟨0, _⟩ => exact h0.symm
    | ⟨1, _⟩ => exact h1.symm
    | ⟨2, _⟩ => rfl
  · refine shapeCast_apply v _ _ (ix2 r l) ?_
    rw [Shape.rowMajor_val_three, Shape.rowMajor_val_two]
    show r.val * 1024 + l.val = (r.val * 1024 + l.val) * 1 + 0
    omega

/-- The accumulating payload at (r, n): the running count plus the tile's one-hot entries of row r at bin n. -/
theorem pay2_apply (x : Vec Ideal S32x1024 .f32) (acc : Vec Ideal S32x64 .f32) (r : Fin 32) (n : Fin 64) :
    k0_pay2 x acc (ix2 r n) = acc (ix2 r n) + ∑ l : Fin 1024, hit (x (ix2 r l)) n := by
  unfold k0_pay2
  dsimp only
  -- a pointwise sum of the accumulator (cast to its own shape) and the reduction over the target axis
  refine (addf_apply _ _ (ix2 r n)).trans ?_
  refine congrArg₂ (· + ·) (congrFun (shapeCast_self acc _) _) ?_
  refine (Ideal.multiReduction_add_single _ _ _ _ _ (ix2 r n)).trans ?_
  show ∑ l : Fin 1024, _ = _
  refine Finset.sum_congr rfl fun l _ => ?_
  -- the summand at (r, l, n): the comparison of target (r, l)'s decade word with the bin number n, widened and
  -- converted; every operation on the way is pointwise
  unfold hit
  refine congrArg (FloatOps.sitofp (F := Ideal) .f32) ?_
  refine congrArg (fun w : BitVec 1 => w.setWidth 32) ?_
  refine congrArg₂ (IntOp.cmpi .eq) ?_ ?_
  · refine (spread_apply _ r l _ rfl rfl).trans ?_
    unfold dword
    rw [shapeCast_self]
    rfl
  · exact (iota_single_apply _ _ _ _ _ _).trans rfl

end Cert.KernelIdeal.Hist

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.HistFold.lean ====
/-
  The histogram kernel's result array.  Row block q (32 rows) is visited by the 512 consecutive grid points
  512 q … 512 q + 511; point 512 q + s holds the tile of columns 1024 s … 1024 s + 1023.  The running block after
  point 512 q + s is the count over the tiles 0 … s; the block written back after the last tile is the count over the
  whole row.  The two write-backs tile the 64 × 64 array, so it ends holding the histogram.
-/
import proofs.«128547_j60421599920187_1_alg».proof.Proof.HistBody
import proofs.«128547_j60421599920187_1_alg».proof.Proof.LibBlockSum

noncomputable section

open scoped BigOperators
open Idealize.ShloMosaic Idealize.ShloMosaic.TcCoe Idealize.SL.Sem Idealize.ShloMosaic.ValueIdx
open Idealize.ShloMosaic.Pipeline (Dat)

namespace Cert.KernelIdeal.Hist

open Cert.KernelIdeal Cert.KernelIdeal.Gen Cert.Decade

variable (V : (c : Dev nD) → (b : Ref sig .tc) → Buf (Elt Ideal) ((c : Thread nD τ).loc b))

/-- The input array read at a row and a column given as naturals (zero outside the array). -/
private def rd (Y : S64x524288.Idx → EReal) (a b : ℕ) : EReal :=
  if h : a < 64 ∧ b < 524288 then Y (ix2 ⟨a, h.1⟩ ⟨b, h.2⟩) else 0

/-- Grid point t reads the tile of row block t / 512 and column block t % 512, -/
private theorem index0 : ∀ t : Fin cfg0.N, win0_0.index t 0 = t.val / 512 ∧ win0_0.index t 1 = t.val % 512 :=
  (by decide +kernel : ∀ t : Fin grid0.N, win0_0.index t 0 = t.val / 512 ∧ win0_0.index t 1 = t.val % 512)

/-- and works on the counts of row block t / 512, all 64 bins of them. -/
private theorem index1 : ∀ t : Fin cfg0.N, win0_1.index t 0 = t.val / 512 ∧ win0_1.index t 1 = 0 :=
  (by decide +kernel : ∀ t : Fin grid0.N, win0_1.index t 0 = t.val / 512 ∧ win0_1.index t 1 = 0)

/-- The input block of point t at (r, l) is the array's entry (32 (t / 512) + r, 1024 (t % 512) + l): a block's
    entry sits at block index × block size + its coordinate inside the block, on each axis. -/
private theorem iblk_entry (c : Dev nD) (t : Fin cfg0.N) (r : Fin 32) (l : Fin 1024) :
    (iblk0 V c 0 t : Vec Ideal S32x1024 .f32) (ix2 r l)
      = rd (V c main_v1) (32 * (t.val / 512) + r.val) (1024 * (t.val % 512) + l.val) := by
  have hN : t.val < 1024 := lt_of_lt_of_eq t.isLt (show cfg0.N = 1024 from N_0)
  have hr := r.isLt
  have hl := l.isLt
  unfold rd
  rw [dif_pos ⟨by omega, by omega⟩]
  unfold iblk0
  rw [View.read_apply]
  show V c main_v1 _ = V c main_v1 _
  congr 1
  funext a
  apply Fin.ext
  match a with
  | ⟨0, _⟩ =>
    show win0_0.index t 0 * 32 + 1 * r.val = 32 * (t.val / 512) + r.val
    rw [(index0 t).1]; omega
  | ⟨1, _⟩ =>
    show win0_0.index t 1 * 1024 + 1 * l.val = 1024 * (t.val % 512) + l.val
    rw [(index0 t).2]; omega

/-- The tile of point 512 q + s, counted at (r, k): the one-hot entries at bin k of row 32 q + r over the columns
    1024 s … 1024 s + 1023. -/
private theorem tile_entry (c : Dev nD) (q s : ℕ) (hs : s < 512) (h : 512 * q + s < cfg0.N) (r : Fin 32) (k : Fin 64) :
    ∑ l : Fin 1024, hit ((iblk0 V c 0 ⟨512 * q + s, h⟩ : Vec Ideal S32x1024 .f32) (ix2 r l)) k
      = ∑ l : Fin 1024, hit (rd (V c main_v1) (32 * q + r.val) (1024 * s + l.val)) k := by
  refine Finset.sum_congr rfl fun l _ => ?_
  rw [iblk_entry]
  have e1 : 32 * ((512 * q + s) / 512) + r.val = 32 * q + r.val := by omega
  have e2 : 1024 * ((512 * q + s) % 512) + l.val = 1024 * s + l.val := by omega
  show hit (rd (V c main_v1) (32 * ((512 * q + s) / 512) + r.val) (1024 * ((512 * q + s) % 512) + l.val)) k = _
  rw [e1, e2]

/-- The running block after point 512 q + s, at (r, k): the one-hot counts of the tiles 0 … s of row 32 q + r.
    By induction on s: the first tile of the run starts from the block of zeros, each later tile adds its counts to
    what the tile before left. -/
private theorem run_entry (c : Dev nD) (q : ℕ) (s : ℕ) : ∀ (hs : s < 512) (h : 512 * q + s < cfg0.N) (r : Fin 32) (k : Fin 64),
    outsAt0 V c (512 * q + s) h (ix2 r k)
      = ∑ u ∈ Finset.range (s + 1), ∑ l : Fin 1024, hit (rd (V c main_v1) (32 * q + r.val) (1024 * u + l.val)) k := by
  induction s with
  | zero =>
    intro hs h r k
    rw [outsAt0_A V c ⟨512 * q + 0, h⟩ (by show (512 * q + 0) % 512 = 0; omega), out_A, pay2_apply, pay1_apply, zero_add,
      Finset.sum_range_one]
    exact tile_entry V c q 0 hs h r k
  | succ s ih =>
    intro hs h r k
    have hB : ¬(⟨512 * q + (s + 1), h⟩ : Fin cfg0.N).val % 512 = 0 := by dsimp only; omega
    rw [outsAt0_B V c ⟨512 * q + (s + 1), h⟩ hB, out_B, pay2_apply]
    show outsAt0 V c (512 * q + s) _ (ix2 r k) + _ = _
    rw [ih (by omega) (by omega) r k, Finset.sum_range_succ _ (s + 1)]
    exact congrArg (fun z => (∑ u ∈ Finset.range (s + 1), ∑ l : Fin 1024, hit (rd (V c main_v1) (32 * q + r.val) (1024 * u + l.val)) k) + z)
      (tile_entry V c q (s + 1) hs h r k)

/-- A row's histogram entry, cut into the 512 tiles of 1024 columns: 524288 = 512 · 1024 consecutive columns summed
    run by run. -/
private theorem hist_blocks (Y : S64x524288.Idx → EReal) (b k : Fin 64) :
    hist Y b k = ∑ u ∈ Finset.range 512, ∑ l : Fin 1024, hit (rd Y b.val (1024 * u + l.val)) k := by
  unfold hist
  rw [← Cert.LibBlockSum.sum_fin_mul (fun j => hit (rd Y b.val j) k) 512 1024]
  show _ = ∑ t : Fin 524288, hit (rd Y b.val t.val) k
  refine Finset.sum_congr rfl fun t _ => ?_
  unfold rd
  rw [dif_pos ⟨b.isLt, t.isLt⟩]

/-- The histogram as contents of the counts array. -/
private abbrev G (c : Dev nD) : S64x64.Idx → EReal := fun i => hist (V c main_v1) (i 0) (i 1)

/-- The write-back after the last tile of row block q = t / 512 writes rows 32 q … 32 q + 31 of the histogram: the
    running block there is the count over all 512 tiles, and entry (r, k) of the block is entry (32 q + r, k) of the
    array. -/
private theorem flushed_eq (c : Dev nD) (t : Fin cfg0.N) (hf : (cfg0.win 1).flush t = true) :
    (dat0 (F := Ideal) V c).flushed 1 t = ((cfg0.win 1).blk t).view.read (Elt Ideal) (G V c) := by
  have hN : t.val < 1024 := lt_of_lt_of_eq t.isLt (show cfg0.N = 1024 from N_0)
  have h511 : t.val % 512 = 511 := (flush0_1 t).mp hf
  show (cfg0.win 1).cut (grid0.coords t) ((dat0 V c).after 1 t) = _
  rw [after0_1]
  funext y
  obtain ⟨r, k, rfl⟩ : ∃ (r : Fin 32) (k : Fin 64), y = ix2 r k := ⟨y 0, y 1, eq_ix2 y⟩
  show outsAt0 V c t.val t.isLt (ix2 r k) = _
  -- t is the last point, 512 q + 511, of its run
  have same : ∀ (u : ℕ) (hu : u < cfg0.N), u = t.val → outsAt0 V c u hu = outsAt0 V c t.val t.isLt :=
    fun u hu e => by subst e; rfl
  have hu : 512 * (t.val / 512) + 511 < cfg0.N :=
    lt_of_lt_of_eq (by omega : 512 * (t.val / 512) + 511 < 1024) (show (1024 : ℕ) = cfg0.N from N_0.symm)
  rw [← same (512 * (t.val / 512) + 511) hu (by omega), run_entry V c (t.val / 512) 511 (by omega) hu r k, View.read_apply]
  -- the block's entry (r, k) in the array
  have hq : 32 * (t.val / 512) + r.val < 64 := by have := r.isLt; omega
  have he : ((cfg0.win 1).blk t).view.emb (ix2 r k) = (ix2 ⟨32 * (t.val / 512) + r.val, hq⟩ k : S64x64.Idx) := by
    funext a
    apply Fin.ext
    match a with
    | ⟨0, _⟩ =>
      show win0_1.index t 0 * 32 + 1 * r.val = 32 * (t.val / 512) + r.val
      rw [(index1 t).1]; omega
    | ⟨1, _⟩ =>
      show win0_1.index t 1 * 64 + 1 * k.val = k.val
      rw [(index1 t).2]; omega
  rw [cast_eq, he]
  exact (hist_blocks (V c main_v1) ⟨32 * (t.val / 512) + r.val, hq⟩ k).symm

/-- After the run the counts array holds the histogram of the targets the region found in its input array: entry
    (b, n) lies in the block written back at point 512 (b / 32) + 511, so the two write-backs cover the array. -/
theorem hist_final (c : Dev nD) :
    (dat0 (F := Ideal) V c).arrAt 1 cfg0.N = fun i : S64x64.Idx => hist (V c main_v1) (i 0) (i 1) :=
  (dat0 (F := Ideal) V c).arrAt_eq_of_cover 1 (G V c) (flushed_eq V c) fun i => by
    have h0 : (i 0 : ℕ) < 64 := (i 0).isLt
    have h1 : (i 1 : ℕ) < 64 := (i 1).isLt
    have ht : 512 * ((i 0 : ℕ) / 32) + 511 < cfg0.N :=
      lt_of_lt_of_eq (by omega : 512 * ((i 0 : ℕ) / 32) + 511 < 1024) (show (1024 : ℕ) = cfg0.N from N_0.symm)
    refine ⟨⟨512 * ((i 0 : ℕ) / 32) + 511, ht⟩, (flush0_1 _).mpr (by show (512 * ((i 0 : ℕ) / 32) + 511) % 512 = 511; omega), ?_⟩
    show i ∈ ((View.whole main_v2).slice (win0_1.rect ⟨512 * ((i 0 : ℕ) / 32) + 511, ht⟩)).set
    rw [View.set_slice_whole, Rect.mem_set_unit]
    intro a
    match a with
    | ⟨0, _⟩ =>
      show win0_1.index ⟨512 * ((i 0 : ℕ) / 32) + 511, ht⟩ 0 * 32 ≤ (i 0 : ℕ)
        ∧ (i 0 : ℕ) < win0_1.index ⟨512 * ((i 0 : ℕ) / 32) + 511, ht⟩ 0 * 32 + 32
      rw [(index1 _).1]
      show (512 * ((i 0 : ℕ) / 32) + 511) / 512 * 32 ≤ (i 0 : ℕ) ∧ (i 0 : ℕ) < (512 * ((i 0 : ℕ) / 32) + 511) / 512 * 32 + 32
      omega
    | ⟨1, _⟩ =>
      show win0_1.index ⟨512 * ((i 0 : ℕ) / 32) + 511, ht⟩ 1 * 64 ≤ (i 1 : ℕ)
        ∧ (i 1 : ℕ) < win0_1.index ⟨512 * ((i 0 : ℕ) / 32) + 511, ht⟩ 1 * 64 + 64
      rw [(index1 _).2]
      omega

end Cert.KernelIdeal.Hist

end
-- ==== Proof.LossBody.lean ====
/-
  The loss kernel's body as values.  For a tile of 512 columns it forms, sample by sample, the weight (the one-hot
  row of the sample's decade times the table row of its batch row, summed over the 64 bins) and the squared error,
  and reduces both squared-error-times-weight and weight over the tile: first along the columns, then along the
  rows.  The two 1 × 1 accumulators are zeroed at the first tile and added to at every tile.
-/
import proofs.«128547_j60421599920187_1_alg».proof.Proof.Gen.KernelIdeal.Frame
import proofs.«128547_j60421599920187_1_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx

namespace Cert.KernelIdeal.Loss

open Cert.KernelIdeal Cert.KernelIdeal.Gen Cert.Decade

variable {F : FTy → Type} [FloatOps F]

/-- The zero offsets of a block that is read and written whole. -/
private theorem hz : (![0, 0] : Fin 2 → Nat) = fun _ => 0 := funext fun a => by fin_cases a <;> rfl

/-- First tile, weighted-error accumulator: zero, then the tile's sum added. -/
theorem out_A_3 (c : Dev nD) (i : grid1.Coords) (a1 : Memref sig .tc .vmem S64x512 .f32) (h1 : a1.IsWhole)
    (a2 : Memref sig .tc .vmem S64x512 .f32) (h2 : a2.IsWhole) (a3 : Memref sig .tc .vmem S64x64 .f32) (h3 : a3.IsWhole)
    (a4 : Memref sig .tc .vmem S1x1 .f32) (h4 : a4.IsWhole) (a5 : Memref sig .tc .vmem S1x1 .f32) (h5 : a5.IsWhole)
    (hc : cond1_0 i) (x0 x1 : Vec F S64x512 .f32) (x2 : Vec F S64x64 .f32) :
    out1_A_3 c i a1 h1 a2 h2 a3 h3 a4 h4 a5 h5 hc x0 x1 x2 = k1_pay1 (k1_pay7 x0 x1 x2) (k1_pay3 (F := F)) := by
  unfold out1_A_3
  rw [View.read_writes_eq_canon _ _ _ (cover1_A_3 c i a1 h1 a2 h2 a3 h3 a4 h4 a5 h5 hc x0 x1 x2)]
  unfold kernelRun1_A
  dsimp only
  -- two whole-block stores: the later one covers, and its loaded operand is the earlier one read back
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S64x512) hz, View.ld_unit_zero (S := S64x64) hz, View.ld_unit_zero (S := S1x1) hz]

/-- First tile, weight accumulator. -/
theorem out_A_4 (c : Dev nD) (i : grid1.Coords) (a1 : Memref sig .tc .vmem S64x512 .f32) (h1 : a1.IsWhole)
    (a2 : Memref sig .tc .vmem S64x512 .f32) (h2 : a2.IsWhole) (a3 : Memref sig .tc .vmem S64x64 .f32) (h3 : a3.IsWhole)
    (a4 : Memref sig .tc .vmem S1x1 .f32) (h4 : a4.IsWhole) (a5 : Memref sig .tc .vmem S1x1 .f32) (h5 : a5.IsWhole)
    (hc : cond1_0 i) (x0 x1 : Vec F S64x512 .f32) (x2 : Vec F S64x64 .f32) :
    out1_A_4 c i a1 h1 a2 h2 a3 h3 a4 h4 a5 h5 hc x0 x1 x2 = k1_pay2 (k1_pay8 x1 x2) (k1_pay4 (F := F)) := by
  unfold out1_A_4
  rw [View.read_writes_eq_canon _ _ _ (cover1_A_4 c i a1 h1 a2 h2 a3 h3 a4 h4 a5 h5 hc x0 x1 x2)]
  unfold kernelRun1_A
  dsimp only
  -- two whole-block stores: the later one covers, and its loaded operand is the earlier one read back
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S64x512) hz, View.ld_unit_zero (S := S64x64) hz, View.ld_unit_zero (S := S1x1) hz]

/-- A later tile, weighted-error accumulator: the tile's sum added to what the tile before left. -/
theorem out_B_3 (c : Dev nD) (i : grid1.Coords) (a1 : Memref sig .tc .vmem S64x512 .f32) (h1 : a1.IsWhole)
    (a2 : Memref sig .tc .vmem S64x512 .f32) (h2 : a2.IsWhole) (a3 : Memref sig .tc .vmem S64x64 .f32) (h3 : a3.IsWhole)
    (a4 : Memref sig .tc .vmem S1x1 .f32) (h4 : a4.IsWhole) (a5 : Memref sig .tc .vmem S1x1 .f32) (h5 : a5.IsWhole)
    (hc : ¬cond1_0 i) (x0 x1 : Vec F S64x512 .f32) (x2 : Vec F S64x64 .f32) (xo3 xo4 : Vec F S1x1 .f32) :
    out1_B_3 c i a1 h1 a2 h2 a3 h3 a4 h4 a5 h5 hc x0 x1 x2 xo3 xo4 = k1_pay1 (k1_pay7 x0 x1 x2) xo3 := by
  unfold out1_B_3
  rw [View.read_writes_eq_canon _ _ _ (cover1_B_3 c i a1 h1 a2 h2 a3 h3 a4 h4 a5 h5 hc x0 x1 x2 xo3 xo4)]
  unfold kernelRun1_B
  dsimp only
  -- one whole-block store covers; its loaded operands are the whole buffers as they stood
  sl_unfold_words
  rw [View.canon_unit_zero hz]
  simp only [View.readAt_eq_ld, h1.read_unread, h2.read_unread, h3.read_unread, h4.read_unread, h5.read_unread,
    View.ld_unit_zero (S := S64x512) hz, View.ld_unit_zero (S := S64x64) hz, View.ld_unit_zero (S := S1x1) hz]

/-- A later tile, weight accumulator. -/
theorem out_B_4 (c : Dev nD) (i : grid1.Coords) (a1 : Memref sig .tc .vmem S64x512 .f32) (h1 : a1.IsWhole)
    (a2 : Memref sig .tc .vmem S64x512 .f32) (h2 : a2.IsWhole) (a3 : Memref sig .tc .vmem S64x64 .f32) (h3 : a3.IsWhole)
    (a4 : Memref sig .tc .vmem S1x1 .f32) (h4 : a4.IsWhole) (a5 : Memref sig .tc .vmem S1x1 .f32) (h5 : a5.IsWhole)
    (hc : ¬cond1_0 i) (x0 x1 : Vec F S64x512 .f32) (x2 : Vec F S64x64 .f32) (xo3 xo4 : Vec F S1x1 .f32) :
    out1_B_4 c i a1 h1 a2 h2 a3 h3 a4 h4 a5 h5 hc x0 x1 x2 xo3 xo4 = k1_pay2 (k1_pay8 x1 x2) xo4 := by
  unfold out1_B_4
  rw [View.read_writes_eq_canon _ _ _ (cover1_B_4 c i a1 h1 a2 h2 a3 h3 a4 h4 a5 h5 hc x0 x1 x2 xo3 xo4)]
  unfold kernelRun1_B
  dsimp only
  -- one whole-block store covers; its loaded operands are the whole buffers as they stood
  sl_unfold_words
  rw [View.canon_unit_zero hz]
  simp only [View.readAt_eq_ld, h1.read_unread, h2.read_unread, h3.read_unread, h4.read_unread, h5.read_unread,
    View.ld_unit_zero (S := S64x512) hz, View.ld_unit_zero (S := S64x64) hz, View.ld_unit_zero (S := S1x1) hz]

/-- The zero the accumulators are reset to. -/
theorem pay3_apply (j : S1x1.Idx) : (k1_pay3 (F := Ideal)) j = 0 := by
  unfold k1_pay3
  exact Ideal.ofBits_zero_f32
theorem pay4_apply (j : S1x1.Idx) : (k1_pay4 (F := Ideal)) j = 0 := by
  unfold k1_pay4
  exact Ideal.ofBits_zero_f32

/-- The accumulating stores: the accumulator plus the tile's sum. -/
theorem pay1_apply (v acc : Vec Ideal S1x1 .f32) (j : S1x1.Idx) : k1_pay1 v acc j = acc j + v j := by
  unfold k1_pay1
  rw [shapeCast_self]
  rfl
theorem pay2_apply (v acc : Vec Ideal S1x1 .f32) (j : S1x1.Idx) : k1_pay2 v acc j = acc j + v j := by
  unfold k1_pay2
  rw [shapeCast_self]
  rfl

/-- A tile given a trailing unit axis and spread along 64 bins reads the tile at the first two coordinates. -/
theorem spread_bins {α : Type} (v : S64x512.Idx → α) (b : Fin 64) (l : Fin 512) (n : Fin 64) :
    broadcastTo S64x512x64 (shapeCast S64x512x1 v shapeCasts_S64x512_S64x512x1) broadcasts_S64x512x1_S64x512x64 (ix3 b l n)
      = v (ix2 b l) := by
  refine (broadcastTo_apply _ _ (ix3 b l n) (ix3 b l (0 : Fin 1)) fun a => ?_).trans ?_
  · match a with
    | ⟨0, _⟩ => rfl
    | ⟨1, _⟩ => rfl
    | ⟨2, _⟩ => rfl
  · refine shapeCast_apply _ _ _ (ix2 b l) ?_
    rw [Shape.rowMajor_val_two, Shape.rowMajor_val_three]
    show b.val * 512 + l.val = (b.val * 512 + l.val) * 1 + 0
    omega

/-- The table given a middle unit axis and spread along the 512 columns reads the table at the row and the bin. -/
theorem spread_cols {α : Type} (v : S64x64.Idx → α) (b : Fin 64) (l : Fin 512) (n : Fin 64) :
    broadcastTo S64x512x64 (shapeCast S64x1x64 v shapeCasts_S64x64_S64x1x64) broadcasts_S64x1x64_S64x512x64 (ix3 b l n)
      = v (ix2 b n) := by
  refine (broadcastTo_apply _ _ (ix3 b l n) (ix3 b (0 : Fin 1) n) fun a => ?_).trans ?_
  · match a with
    | ⟨0, _⟩ => rfl
    | ⟨1, _⟩ => rfl
    | ⟨2, _⟩ => rfl
  · refine shapeCast_apply _ _ _ (ix2 b n) ?_
    rw [Shape.rowMajor_val_two, Shape.rowMajor_val_three]
    show b.val * 64 + n.val = (b.val * 1 + 0) * 64 + n.val
    omega

/-- The sum along the bins, at a sample of the tile. -/
theorem bin_sum (src : FVec Ideal S64x512x64 .f32) (b : Fin 64) (l : Fin 512) :
    multiReduction .add [2] S64x512 src 0x00000000#32 reduces_S64x512x64_S64x512 (.inl rfl) rfl (ix2 b l)
      = ∑ n : Fin 64, src (ix3 b l n) :=
  (Ideal.multiReduction_add_single src 0x00000000#32 reduces_S64x512x64_S64x512 (.inl rfl) rfl (ix2 b l)).trans
    (Finset.sum_congr rfl fun n _ => congrArg src (funext fun a => match a with
      | ⟨0, _⟩ => rfl
      | ⟨1, _⟩ => rfl
      | ⟨2, _⟩ => rfl))

/-- A sample's weight inside a tile: row b, column l of the tile. -/
theorem pay6_apply (y : Vec Ideal S64x512 .f32) (ic : Vec Ideal S64x64 .f32) (b : Fin 64) (l : Fin 512) :
    k1_pay6 y ic (ix2 b l) = ∑ n : Fin 64, hit (y (ix2 b l)) n * ic (ix2 b n) := by
  unfold k1_pay6 k1_pay5
  refine (bin_sum _ b l).trans ?_
  refine Finset.sum_congr rfl fun n _ => ?_
  -- each summand is the one-hot entry times the table entry
  refine congrArg₂ (fun p q : EReal => p * q) ?_ ?_
  · -- the one-hot entry: the sample's decade word against the bin's word
    refine congrArg (fun w : BitVec 32 => (FloatOps.sitofp .f32 w : Ideal .f32)) ?_
    refine congrArg (fun c : BitVec 1 => c.setWidth 32) ?_
    refine congrArg₂ (fun u v : BitVec 32 => IntOp.cmpi .eq u v) ?_ ?_
    · refine (spread_bins _ b l n).trans ?_
      exact congrArg dword (congrFun (shapeCast_self y shapeCasts_S64x512_S64x512) (ix2 b l))
    · exact iota_single_apply .tc S64x512x64 32 2 iota_S64x512x64_d2_w32 (ix3 b l n)
  · -- the table's entry at the sample's row and the bin
    exact (spread_cols _ b l n).trans (congrFun (shapeCast_self ic shapeCasts_S64x64_S64x64) (ix2 b n))

/-- A 64 × 512 tile summed along its columns, then along its rows, as the two reductions lay it out:
    the double sum over rows and columns. -/
theorem tile_sum (v : FVec Ideal S64x512 .f32) (j : S1x1.Idx) :
    shapeCast S1x1
        (multiReduction .add [0] S1
          (shapeCast S64x1 (multiReduction .add [1] S64 v 0x00000000#32 reduces_S64x512_S64 (.inl rfl) rfl) shapeCasts_S64_S64x1)
          0x00000000#32 reduces_S64x1_S1 (.inl rfl) rfl)
        shapeCasts_S1_S1x1 j
      = ∑ b : Fin 64, ∑ l : Fin 512, v (ix2 b l) := by
  obtain ⟨p, q, rfl⟩ : ∃ (p q : Fin 1), j = ix2 p q := ⟨j 0, j 1, eq_ix2 j⟩
  obtain rfl : p = 0 := Subsingleton.elim _ _
  obtain rfl : q = 0 := Subsingleton.elim _ _
  -- the outer sum, over the rows
  refine (shapeCast_apply _ _ _ (ix1 (0 : Fin 1)) ?_).trans ?_
  · rw [Shape.rowMajor_val_one, Shape.rowMajor_val_two]; rfl
  refine (Ideal.multiReduction_add_single _ 0x00000000#32 reduces_S64x1_S1 (.inl rfl) rfl (ix1 (0 : Fin 1))).trans ?_
  refine Finset.sum_congr rfl fun b _ => ?_
  -- the inner sum, over the columns of row b
  refine (shapeCast_apply _ _ _ (ix1 b) ?_).trans ?_
  · rw [Shape.rowMajor_val_one, Shape.rowMajor_val_two]
    show b.val = b.val * 1 + 0
    omega
  refine (Ideal.multiReduction_add_single v 0x00000000#32 reduces_S64x512_S64 (.inl rfl) rfl (ix1 b)).trans ?_
  refine Finset.sum_congr rfl fun l _ => congrArg v (funext fun a => match a with
    | ⟨0, _⟩ => rfl
    | ⟨1, _⟩ => rfl)

/-- The tile's weighted squared error, summed over its rows and columns. -/
theorem pay7_apply (p y : Vec Ideal S64x512 .f32) (ic : Vec Ideal S64x64 .f32) (j : S1x1.Idx) :
    k1_pay7 p y ic j
      = ∑ b : Fin 64, ∑ l : Fin 512, ((p (ix2 b l) - y (ix2 b l)) * (p (ix2 b l) - y (ix2 b l))) * k1_pay6 y ic (ix2 b l) := by
  unfold k1_pay7 k1_pay5
  refine (tile_sum _ j).trans ?_
  refine Finset.sum_congr rfl fun b _ => Finset.sum_congr rfl fun l _ => ?_
  rw [shapeCast_self, shapeCast_self]
  rfl

/-- The tile's weights, summed over its rows and columns. -/
theorem pay8_apply (y : Vec Ideal S64x512 .f32) (ic : Vec Ideal S64x64 .f32) (j : S1x1.Idx) :
    k1_pay8 y ic j = ∑ b : Fin 64, ∑ l : Fin 512, k1_pay6 y ic (ix2 b l) := by
  unfold k1_pay8
  exact tile_sum _ j

end Cert.KernelIdeal.Loss

end
-- ==== Proof.LossFold.lean ====
/-
  The loss kernel's two result arrays.  Grid point s (of 1024) holds the tile of columns 512 s … 512 s + 511 of
  all 64 rows; the table of per-bin values is the same whole 64 × 64 block at every point.  The accumulators after
  point s hold the sums over the tiles 0 … s; they are written back once, after the last point, so each 1 × 1 result
  array ends holding the sum over every sample.
-/
import proofs.«128547_j60421599920187_1_alg».proof.Proof.LossBody
import proofs.«128547_j60421599920187_1_alg».proof.Proof.LibBlockSum

noncomputable section

open scoped BigOperators
open Idealize.ShloMosaic Idealize.ShloMosaic.TcCoe Idealize.SL.Sem Idealize.ShloMosaic.ValueIdx
open Idealize.ShloMosaic.Pipeline (Dat)

namespace Cert.KernelIdeal.Loss

open Cert.KernelIdeal Cert.KernelIdeal.Gen Cert.Decade

variable (V : (c : Dev nD) → (b : Ref sig .tc) → Buf (Elt Ideal) ((c : Thread nD τ).loc b))

/-- Where the windows sit at point t: the two sample windows at tile t of the columns, all rows; the table window at
    the origin. -/
theorem index_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0 :=
  (by decide +kernel : ∀ t : Fin grid1.N, _)

/-- The blocks the body is given at point t, and the three arrays they are cut from, at their literal shapes. -/
abbrev pblk (c : Dev nD) (t : Fin cfg1.N) : Vec Ideal S64x512 .f32 := iblk1 V c 0 t
abbrev yblk (c : Dev nD) (t : Fin cfg1.N) : Vec Ideal S64x512 .f32 := iblk1 V c 1 t
abbrev tblk (c : Dev nD) (t : Fin cfg1.N) : Vec Ideal S64x64 .f32 := iblk1 V c 2 t
abbrev parr (c : Dev nD) : Vec Ideal S64x524288 .f32 := V c main_v0
abbrev yarr (c : Dev nD) : Vec Ideal S64x524288 .f32 := V c main_v1
abbrev tarr (c : Dev nD) : Vec Ideal S64x64 .f32 := V c main_v7

/-- Entry (b, l) of the prediction tile at point t is the prediction of row b at column 512 t + l. -/
theorem pblk_apply (c : Dev nD) (t : Fin cfg1.N) (b : Fin 64) (l : Fin 512) (h : 512 * t.val + l.val < 524288) :
    pblk V c t (ix2 b l) = parr V c (ix2 b ⟨512 * t.val + l.val, h⟩) := by
  unfold pblk parr iblk1
  rw [View.read_apply]
  show V c main_v0 _ = V c main_v0 _
  congr 1
  funext a
  apply Fin.ext
  match a with
  | ⟨0, _⟩ => show win1_0.index t 0 * 64 + 1 * b.val = b.val; rw [(index_facts t).1]; omega
  | ⟨1, _⟩ => show win1_0.index t 1 * 512 + 1 * l.val = 512 * t.val + l.val; rw [(index_facts t).2.1]; omega

/-- The same for the target tile. -/
theorem yblk_apply (c : Dev nD) (t : Fin cfg1.N) (b : Fin 64) (l : Fin 512) (h : 512 * t.val + l.val < 524288) :
    yblk V c t (ix2 b l) = yarr V c (ix2 b ⟨512 * t.val + l.val, h⟩) := by
  unfold yblk yarr iblk1
  rw [View.read_apply]
  show V c main_v1 _ = V c main_v1 _
  congr 1
  funext a
  apply Fin.ext
  match a with
  | ⟨0, _⟩ => show win1_1.index t 0 * 64 + 1 * b.val = b.val; rw [(index_facts t).2.2.1]; omega
  | ⟨1, _⟩ => show win1_1.index t 1 * 512 + 1 * l.val = 512 * t.val + l.val; rw [(index_facts t).2.2.2.1]; omega

/-- The table's block is the whole table at every point. -/
theorem tblk_apply (c : Dev nD) (t : Fin cfg1.N) (b n : Fin 64) :
    tblk V c t (ix2 b n) = tarr V c (ix2 b n) := by
  unfold tblk tarr iblk1
  rw [View.read_apply]
  show V c main_v7 _ = V c main_v7 _
  congr 1
  funext a
  apply Fin.ext
  match a with
  | ⟨0, _⟩ => show win1_2.index t 0 * 64 + 1 * b.val = b.val; rw [(index_facts t).2.2.2.2.1]; omega
  | ⟨1, _⟩ => show win1_2.index t 1 * 64 + 1 * n.val = n.val; rw [(index_facts t).2.2.2.2.2]; omega

/-- The weighted squared error of tile s, summed over its rows and its 512 columns (a column past the end counts zero;
    there is none for s < 1024). -/
def tileNum (P Y : (⟨2, ![64, 524288]⟩ : Shape).Idx → EReal) (IC : Fin 64 → Fin 64 → EReal) (s : ℕ) : EReal :=
  ∑ b : Fin 64, ∑ l : Fin 512, (if h : 512 * s + l.val < 524288 then sqerr P Y b ⟨512 * s + l.val, h⟩ * wgt Y IC b ⟨512 * s + l.val, h⟩ else 0)

/-- The weights of tile s, summed likewise. -/
def tileDen (Y : (⟨2, ![64, 524288]⟩ : Shape).Idx → EReal) (IC : Fin 64 → Fin 64 → EReal) (s : ℕ) : EReal :=
  ∑ b : Fin 64, ∑ l : Fin 512, (if h : 512 * s + l.val < 524288 then wgt Y IC b ⟨512 * s + l.val, h⟩ else 0)

/-- A sample's weight inside the tile at point t is its weight in the whole array. -/
theorem tile_wgt (c : Dev nD) (t : Fin cfg1.N) (b : Fin 64) (l : Fin 512) (h : 512 * t.val + l.val < 524288) :
    k1_pay6 (yblk V c t) (tblk V c t) (ix2 b l)
      = wgt (yarr V c) (fun b n => tarr V c (ix2 b n)) b ⟨512 * t.val + l.val, h⟩ := by
  rw [pay6_apply, yblk_apply V c t b l h]
  unfold wgt
  exact Finset.sum_congr rfl fun n _ => by rw [tblk_apply]

/-- What the body adds to the first accumulator at point t. -/
theorem tile_num (c : Dev nD) (t : Fin cfg1.N) (j : S1x1.Idx) :
    k1_pay7 (pblk V c t) (yblk V c t) (tblk V c t) j
      = tileNum (parr V c) (yarr V c) (fun b n => tarr V c (ix2 b n)) t.val := by
  have hN : t.val < 1024 := lt_of_lt_of_eq t.isLt (show cfg1.N = 1024 from N_1)
  rw [pay7_apply]
  unfold tileNum
  refine Finset.sum_congr rfl fun b _ => Finset.sum_congr rfl fun l _ => ?_
  have h : 512 * t.val + l.val < 524288 := by have := l.isLt; omega
  rw [dif_pos h, tile_wgt V c t b l h, pblk_apply V c t b l h, yblk_apply V c t b l h]
  rfl

/-- What the body adds to the second accumulator at point t. -/
theorem tile_den (c : Dev nD) (t : Fin cfg1.N) (j : S1x1.Idx) :
    k1_pay8 (yblk V c t) (tblk V c t) j
      = tileDen (yarr V c) (fun b n => tarr V c (ix2 b n)) t.val := by
  have hN : t.val < 1024 := lt_of_lt_of_eq t.isLt (show cfg1.N = 1024 from N_1)
  rw [pay8_apply]
  unfold tileDen
  refine Finset.sum_congr rfl fun b _ => Finset.sum_congr rfl fun l _ => ?_
  have h : 512 * t.val + l.val < 524288 := by have := l.isLt; omega
  rw [dif_pos h, tile_wgt V c t b l h]

/-- The first accumulator after point n holds the weighted squared errors of the tiles 0 … n. -/
theorem acc_num (c : Dev nD) : ∀ (n : ℕ) (hn : n < cfg1.N) (j : S1x1.Idx),
    (outsAt1 V c n hn).1 j
      = ∑ s ∈ Finset.range (n + 1), tileNum (parr V c) (yarr V c) (fun b n => tarr V c (ix2 b n)) s
  | 0, hn, j => by
    rw [outsAt1_A V c ⟨0, hn⟩ rfl]; dsimp only
    rw [out_A_3, pay1_apply, pay3_apply, zero_add, Finset.sum_range_one]
    exact tile_num V c ⟨0, hn⟩ j
  | n + 1, hn, j => by
    have hN : cfg1.N = 1024 := N_1
    have hB : ¬(⟨n + 1, hn⟩ : Fin cfg1.N).val % 1024 = 0 := by dsimp only; omega
    rw [outsAt1_B V c ⟨n + 1, hn⟩ hB]; dsimp only
    rw [out_B_3, pay1_apply, Finset.sum_range_succ _ (n + 1)]
    refine congrArg₂ (· + ·) ?_ (tile_num V c ⟨n + 1, hn⟩ j)
    exact acc_num c n (Nat.lt_of_succ_lt hn) j

/-- The second accumulator after point n holds the weights of the tiles 0 … n. -/
theorem acc_den (c : Dev nD) : ∀ (n : ℕ) (hn : n < cfg1.N) (j : S1x1.Idx),
    (outsAt1 V c n hn).2 j
      = ∑ s ∈ Finset.range (n + 1), tileDen (yarr V c) (fun b n => tarr V c (ix2 b n)) s
  | 0, hn, j => by
    rw [outsAt1_A V c ⟨0, hn⟩ rfl]; dsimp only
    rw [out_A_4, pay2_apply, pay4_apply, zero_add, Finset.sum_range_one]
    exact tile_den V c ⟨0, hn⟩ j
  | n + 1, hn, j => by
    have hN : cfg1.N = 1024 := N_1
    have hB : ¬(⟨n + 1, hn⟩ : Fin cfg1.N).val % 1024 = 0 := by dsimp only; omega
    rw [outsAt1_B V c ⟨n + 1, hn⟩ hB]; dsimp only
    rw [out_B_4, pay2_apply, Finset.sum_range_succ _ (n + 1)]
    refine congrArg₂ (· + ·) ?_ (tile_den V c ⟨n + 1, hn⟩ j)
    exact acc_den c n (Nat.lt_of_succ_lt hn) j

/-- The 1024 tiles' weighted squared errors add up to the sum over every sample: the rows' sums swapped with the
    tiles', then each row's 1024 runs of 512 columns joined into its 524288 columns. -/
theorem tiles_num (P Y : (⟨2, ![64, 524288]⟩ : Shape).Idx → EReal) (IC : Fin 64 → Fin 64 → EReal) :
    ∑ s ∈ Finset.range 1024, tileNum P Y IC s = num P Y IC := by
  unfold tileNum num
  rw [Finset.sum_comm]
  exact Finset.sum_congr rfl fun b _ =>
    (Cert.LibBlockSum.sum_fin_blocks 1024 512 (by norm_num) (fun t : Fin 524288 => sqerr P Y b t * wgt Y IC b t)).symm

/-- The same for the weights. -/
theorem tiles_den (Y : (⟨2, ![64, 524288]⟩ : Shape).Idx → EReal) (IC : Fin 64 → Fin 64 → EReal) :
    ∑ s ∈ Finset.range 1024, tileDen Y IC s = den Y IC := by
  unfold tileDen den
  rw [Finset.sum_comm]
  exact Finset.sum_congr rfl fun b _ =>
    (Cert.LibBlockSum.sum_fin_blocks 1024 512 (by norm_num) (fun t : Fin 524288 => wgt Y IC b t)).symm

/-- The two result windows sit at the origin at every point. -/
theorem out_index_facts : ∀ t : Fin cfg1.N,
    win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The last grid point, the one after which the two result arrays are written. -/
abbrev lastPt : Fin cfg1.N := ⟨1023, by rw [show cfg1.N = 1024 from N_1]; decide⟩

/-- The first result array ends at the weighted sum of squared errors over every sample, the weights looked up in
    the table the region found in its third input array. -/
theorem num_final (c : Dev nD) :
    (dat1 (F := Ideal) V c).arrAt 3 cfg1.N
      = fun _ : S1x1.Idx => num (V c main_v0) (V c main_v1) (fun b n => V c main_v7 (ix2 b n)) := by
  have hN : cfg1.N = 1024 := N_1
  refine (dat1 V c).arrAt_eq_of_cover 3 _ (fun t hf => ?_) (fun i => ?_)
  · -- the one write-back, after the last point, writes the sum accumulated over all 1024 tiles; its 1 × 1 block at
    -- the origin is the whole 1 × 1 array
    have h3 : t.val = 1023 := by have := (flush1_3 t).mp hf; have := t.isLt; omega
    show (cfg1.win 3).cut (grid1.coords t) ((dat1 V c).after 3 t) = _
    rw [after1_3]
    have hz' : (fun a => win1_3.index t a * main_v8_0.ty.shape.size a) = fun _ => 0 := funext fun a => by
      match a with
      | ⟨0, _⟩ => show win1_3.index t 0 * 1 = 0; rw [(out_index_facts t).1]
      | ⟨1, _⟩ => show win1_3.index t 1 * 1 = 0; rw [(out_index_facts t).2.1]
    refine Eq.trans ?_ (Memref.read_access_unit_zero (Elt Ideal) main_v8_0 hz' (fun a => by rw [congrFun hz' a]; simp) _).symm
    funext j
    refine (acc_num V c t.val t.isLt _).trans ?_
    rw [← tiles_num, h3]
  · -- the array's one entry lies in the last point's block
    refine ⟨lastPt, (flush1_3 lastPt).mpr rfl, ?_⟩
    show i ∈ ((View.whole main_v8_0).slice (win1_3.rect lastPt)).set
    rw [View.set_slice_whole, Rect.mem_set_unit]
    intro a
    have h0 : (i 0 : Nat) < 1 := (i 0).isLt
    have h1 : (i 1 : Nat) < 1 := (i 1).isLt
    match a with
    | ⟨0, _⟩ =>
      show win1_3.index lastPt 0 * win1_3.size 0 ≤ (i 0 : Nat) ∧ (i 0 : Nat) < win1_3.index lastPt 0 * win1_3.size 0 + win1_3.xsize (grid1.coords lastPt) 0
      rw [show win1_3.index lastPt 0 * win1_3.size 0 = 0 from by decide +kernel, show win1_3.xsize (grid1.coords lastPt) 0 = 1 from by decide +kernel]; omega
    | ⟨1, _⟩ =>
      show win1_3.index lastPt 1 * win1_3.size 1 ≤ (i 1 : Nat) ∧ (i 1 : Nat) < win1_3.index lastPt 1 * win1_3.size 1 + win1_3.xsize (grid1.coords lastPt) 1
      rw [show win1_3.index lastPt 1 * win1_3.size 1 = 0 from by decide +kernel, show win1_3.xsize (grid1.coords lastPt) 1 = 1 from by decide +kernel]; omega

/-- The second result array ends at the sum of the weights. -/
theorem den_final (c : Dev nD) :
    (dat1 (F := Ideal) V c).arrAt 4 cfg1.N
      = fun _ : S1x1.Idx => den (V c main_v1) (fun b n => V c main_v7 (ix2 b n)) := by
  have hN : cfg1.N = 1024 := N_1
  refine (dat1 V c).arrAt_eq_of_cover 4 _ (fun t hf => ?_) (fun i => ?_)
  · have h3 : t.val = 1023 := by have := (flush1_4 t).mp hf; have := t.isLt; omega
    show (cfg1.win 4).cut (grid1.coords t) ((dat1 V c).after 4 t) = _
    rw [after1_4]
    have hz' : (fun a => win1_4.index t a * main_v8_1.ty.shape.size a) = fun _ => 0 := funext fun a => by
      match a with
      | ⟨0, _⟩ => show win1_4.index t 0 * 1 = 0; rw [(out_index_facts t).2.2.1]
      | ⟨1, _⟩ => show win1_4.index t 1 * 1 = 0; rw [(out_index_facts t).2.2.2]
    refine Eq.trans ?_ (Memref.read_access_unit_zero (Elt Ideal) main_v8_1 hz' (fun a => by rw [congrFun hz' a]; simp) _).symm
    funext j
    refine (acc_den V c t.val t.isLt _).trans ?_
    rw [← tiles_den, h3]
  · refine ⟨lastPt, (flush1_4 lastPt).mpr rfl, ?_⟩
    show i ∈ ((View.whole main_v8_1).slice (win1_4.rect lastPt)).set
    rw [View.set_slice_whole, Rect.mem_set_unit]
    intro a
    have h0 : (i 0 : Nat) < 1 := (i 0).isLt
    have h1 : (i 1 : Nat) < 1 := (i 1).isLt
    match a with
    | ⟨0, _⟩ =>
      show win1_4.index lastPt 0 * win1_4.size 0 ≤ (i 0 : Nat) ∧ (i 0 : Nat) < win1_4.index lastPt 0 * win1_4.size 0 + win1_4.xsize (grid1.coords lastPt) 0
      rw [show win1_4.index lastPt 0 * win1_4.size 0 = 0 from by decide +kernel, show win1_4.xsize (grid1.coords lastPt) 0 = 1 from by decide +kernel]; omega
    | ⟨1, _⟩ =>
      show win1_4.index lastPt 1 * win1_4.size 1 ≤ (i 1 : Nat) ∧ (i 1 : Nat) < win1_4.index lastPt 1 * win1_4.size 1 + win1_4.xsize (grid1.coords lastPt) 1
      rw [show win1_4.index lastPt 1 * win1_4.size 1 = 0 from by decide +kernel, show win1_4.xsize (grid1.coords lastPt) 1 = 1 from by decide +kernel]; omega

end Cert.KernelIdeal.Loss

end
-- ==== Proof.KernelValue.lean ====
/-
  The idealized kernel's result buffer after the run, as a function of the two arguments.

  The host flattens both arguments; the histogram region leaves the counts of the flattened targets; the host turns
  the counts into guarded reciprocals; the loss region leaves the weighted sum of squared errors and the sum of the
  weights, looked up in that table; the host divides and takes the root.  Each boundary's contents are read back
  through the fold of boundaries, one buffer at a time.
-/
import proofs.«128547_j60421599920187_1_alg».proof.Proof.KernelRun
import proofs.«128547_j60421599920187_1_alg».proof.Proof.HistFold
import proofs.«128547_j60421599920187_1_alg».proof.Proof.LossFold
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Decade

variable (m : (ℓ : Loc nD τ sig) → Buf (Elt Ideal) ℓ) (ρ : Dev nD → PrngReg)

/-- Dropping the trailing unit axis by a reshape is the two-axis view: both read the same row-major position. -/
theorem shapeCast_flat (X : S64x524288x1.Idx → EReal) (h : S64x524288x1.ShapeCasts S64x524288) :
    shapeCast S64x524288 X h = flat X := by
  funext j
  refine shapeCast_apply X h j (ix3 (j 0) (j 1) (0 : Fin 1)) ?_
  rw [Shape.rowMajor_val_three, Shape.rowMajor_val_two]
  show ((j 0).val * 524288 + (j 1).val) * 1 + 0 = (j 0).val * 524288 + (j 1).val
  omega

/-- At the histogram region's entry the flattened targets and predictions are in place. -/
theorem V1_v1 (c : Dev nD) : (V1 m ρ c main_v1 : S64x524288.Idx → EReal) = flat (m ((c.tc : Thread nD τ).loc main_arg1)) := by
  show StableHlo.after hostOps0 (W0 m ρ c) (Proc.devRef .tc main_v1) = _
  after_results
  exact shapeCast_flat _ _

theorem V1_v0 (c : Dev nD) : (V1 m ρ c main_v0 : S64x524288.Idx → EReal) = flat (m ((c.tc : Thread nD τ).loc main_arg0)) := by
  show StableHlo.after hostOps0 (W0 m ρ c) (Proc.devRef .tc main_v0) = _
  after_results
  exact shapeCast_flat _ _

/-- After the histogram region the counts buffer holds the histogram of the flattened targets. -/
theorem W2_v2 (c : Dev nD) :
    (W2 m ρ c (Proc.devRef .tc main_v2) : S64x64.Idx → EReal)
      = fun i => hist (flat (m ((c.tc : Thread nD τ).loc main_arg1))) (i 0) (i 1) := by
  have h := (W2_arr m ρ c 1).trans (Cert.KernelIdeal.Hist.hist_final (V1 m ρ) c)
  rw [V1_v1] at h
  exact h

/-- The histogram region leaves its input, the flattened targets, as it found them. -/
theorem W2_v1 (c : Dev nD) :
    (W2 m ρ c (Proc.devRef .tc main_v1) : S64x524288.Idx → EReal) = flat (m ((c.tc : Thread nD τ).loc main_arg1)) := by
  refine (W2_arr m ρ c 0).trans (((dat0 (V1 m ρ) c).arrAt_in 0 rfl _).trans ((A_eq0 (V1 m ρ) c 0).trans ?_))
  exact V1_v1 m ρ c

/-- It does not touch the flattened predictions. -/
theorem W2_v0 (c : Dev nD) :
    (W2 m ρ c (Proc.devRef .tc main_v0) : S64x524288.Idx → EReal) = flat (m ((c.tc : Thread nD τ).loc main_arg0)) := by
  refine (W2_of_ne m ρ c main_v0 (fun w => by fin_cases w <;> decide)).trans ?_
  exact V1_v0 m ρ c

/-- The host's turn of a table of counts into guarded reciprocals, entry by entry: a select on "count > 0" between
    the quotient 1 / count and zero. -/
theorem guard_entry (H : S64x64.Idx → EReal) (j : S64x64.Idx) :
    select (cmpf .ogt H (broadcastInDim S64x64 ![] bcast_S_S64x64 (constant (F := Ideal) S_ .f32 0x00000000#32)))
        (Host.divf (broadcastInDim S64x64 ![] bcast_S_S64x64 (constant (F := Ideal) S_ .f32 0x3F800000#32)) H)
        (broadcastInDim S64x64 ![] bcast_S_S64x64 (constant (F := Ideal) S_ .f32 0x00000000#32)) j
      = invc (H j) := rfl

/-- At the loss region's entry the table holds the guarded reciprocals of the counts. -/
theorem V4_v7 (c : Dev nD) (b n : Fin 64) :
    (V4 m ρ c main_v7 : S64x64.Idx → EReal) (ix2 b n) = itab (flat (m ((c.tc : Thread nD τ).loc main_arg1))) b n := by
  have h : (V4 m ρ c main_v7 : S64x64.Idx → EReal)
      = select (cmpf .ogt (W2 m ρ c (Proc.devRef .tc main_v2) : S64x64.Idx → EReal) (broadcastInDim S64x64 ![] bcast_S_S64x64 (constant (F := Ideal) S_ .f32 0x00000000#32)))
          (Host.divf (broadcastInDim S64x64 ![] bcast_S_S64x64 (constant (F := Ideal) S_ .f32 0x3F800000#32)) (W2 m ρ c (Proc.devRef .tc main_v2) : S64x64.Idx → EReal))
          (broadcastInDim S64x64 ![] bcast_S_S64x64 (constant (F := Ideal) S_ .f32 0x00000000#32)) := by
    show StableHlo.after hostOps1_1 (StableHlo.after hostOps1 (W2 m ρ c)) (Proc.devRef .tc main_v7) = _
    after_results
    rfl
  rw [h, guard_entry]
  unfold itab
  exact congrArg invc (congrFun (W2_v2 m ρ c) (ix2 b n))

/-- … and the flattened predictions and targets are still in place. -/
theorem V4_v0 (c : Dev nD) :
    (V4 m ρ c main_v0 : S64x524288.Idx → EReal) = flat (m ((c.tc : Thread nD τ).loc main_arg0)) := by
  refine Eq.trans ?_ (W2_v0 m ρ c)
  show StableHlo.after hostOps1_1 (StableHlo.after hostOps1 (W2 m ρ c)) (Proc.devRef .tc main_v0) = _
  after_results

theorem V4_v1 (c : Dev nD) :
    (V4 m ρ c main_v1 : S64x524288.Idx → EReal) = flat (m ((c.tc : Thread nD τ).loc main_arg1)) := by
  refine Eq.trans ?_ (W2_v1 m ρ c)
  show StableHlo.after hostOps1_1 (StableHlo.after hostOps1 (W2 m ρ c)) (Proc.devRef .tc main_v1) = _
  after_results

/-- The table the loss region reads is the table of guarded reciprocal counts. -/
theorem V4_tab (c : Dev nD) :
    (fun b n : Fin 64 => (V4 m ρ c main_v7 : S64x64.Idx → EReal) (ix2 b n))
      = itab (flat (m ((c.tc : Thread nD τ).loc main_arg1))) :=
  funext fun b => funext fun n => V4_v7 m ρ c b n

/-- After the loss region its first result holds the weighted sum of squared errors … -/
theorem W5_num (c : Dev nD) :
    (W5 m ρ c (Proc.devRef .tc main_v8_0) : S1x1.Idx → EReal)
      = fun _ => num (flat (m ((c.tc : Thread nD τ).loc main_arg0))) (flat (m ((c.tc : Thread nD τ).loc main_arg1)))
          (itab (flat (m ((c.tc : Thread nD τ).loc main_arg1)))) := by
  have h := (W5_arr m ρ c 3).trans (Cert.KernelIdeal.Loss.num_final (V4 m ρ) c)
  rw [V4_tab, V4_v0, V4_v1] at h
  exact h

/-- … and its second the sum of the weights. -/
theorem W5_den (c : Dev nD) :
    (W5 m ρ c (Proc.devRef .tc main_v8_1) : S1x1.Idx → EReal)
      = fun _ => den (flat (m ((c.tc : Thread nD τ).loc main_arg1))) (itab (flat (m ((c.tc : Thread nD τ).loc main_arg1)))) := by
  have h := (W5_arr m ρ c 4).trans (Cert.KernelIdeal.Loss.den_final (V4 m ρ) c)
  rw [V4_tab, V4_v1] at h
  exact h

/-- The host's closing operations on two one-entry arrays: both reshaped to scalars, divided, the root taken. -/
theorem tail_entry (A B : S1x1.Idx → EReal) (a b : EReal) (hA : A = fun _ => a) (hB : B = fun _ => b) (i : S_.Idx) :
    Host.sqrt (F := Ideal) (φ := .f32) (Host.divf (shapeCast S_ A shapeCasts_S1x1_S_) (shapeCast S_ B shapeCasts_S1x1_S_)) i
      = FloatOps.hostUnary (F := Ideal) (φ := .f32) .sqrt (FloatOps.hostDivf (F := Ideal) (φ := .f32) a b) := by
  subst hA hB
  rfl

/-- The result buffer at the last boundary is the loss of the flattened arguments. -/
theorem kernel_value (c : Dev nD) :
    W6 (F := Ideal) m ρ c (Proc.devRef .tc main_v12)
      = fun _ => loss (flat (m ((c.tc : Thread nD τ).loc main_arg0))) (flat (m ((c.tc : Thread nD τ).loc main_arg1))) := by
  have h : (W6 m ρ c (Proc.devRef .tc main_v12) : S_.Idx → EReal)
      = Host.sqrt (F := Ideal) (φ := .f32) (Host.divf (shapeCast S_ (W5 m ρ c (Proc.devRef .tc main_v8_0) : S1x1.Idx → EReal) shapeCasts_S1x1_S_)
          (shapeCast S_ (W5 m ρ c (Proc.devRef .tc main_v8_1) : S1x1.Idx → EReal) shapeCasts_S1x1_S_)) := by
    show StableHlo.after hostOps2 (W5 m ρ c) (Proc.devRef .tc main_v12) = _
    after_results
    rfl
  rw [h]
  funext i
  exact tail_entry _ _ _ _ (W5_num m ρ c) (W5_den m ρ c) i

end Cert.KernelIdeal.Value

end
-- ==== Proof.RefImports.lean ====
/- The reference's generated run and its read-at-an-index lemmas, brought in for the modules that read the reference's result. -/
import proofs.«128547_j60421599920187_1_alg».proof.Proof.Gen.ReferenceIdeal.Run
import proofs.«128547_j60421599920187_1_alg».proof.Proof.Gen.ReferenceIdeal.Read
-- ==== Proof.LibIndex.lean ====
/-
  StableHLO scatter and gather dimension numbers read at an index.

  A scatter's update index lands at the operand index "start + window coordinate", the start read signed off the
  index array and not clamped; a gather's result index reads the operand at "clamped start + offset coordinate".
  For the dimension numbers of the four indexed updates and reads  x[i] += v,  x[i, :] += v,  x[r, k] += 1  and
  y = x[i, :]  these lemmas say where an update lands and what an element of the result is, coordinate by
  coordinate.
-/
import Idealize.ShloMosaic.PureOps.Ideal
import Idealize.ShloMosaic.PureOps.Ideal.Laws
import Idealize.ShloMosaic.Lib.ValueIdx

noncomputable section

open scoped BigOperators

namespace Cert.LibIndex

open Idealize.ShloMosaic Idealize.ShloMosaic.ValueIdx

/-- An update lands on the operand index t exactly when, on every axis, start plus window coordinate is t's
    coordinate: being inside the operand is then automatic, and nothing is dropped. -/
theorem resultIdx?_eq_some_iff {s si u : Shape} (d : ScatterDims s si u) {w : ℕ} (j : u.Idx) (idx : IVec si w) (t : s.Idx) :
    d.resultIdx? j idx = some t ↔ ∀ a, d.start j idx a + (d.window j a : ℤ) = ((t a).val : ℤ) := by
  unfold ScatterDims.resultIdx?
  split
  next h =>
    constructor
    · intro heq a
      have ht := congrArg (fun f : s.Idx => (f a).val) (Option.some.inj heq)
      simp only at ht
      have := (h a).1
      omega
    · intro heq
      refine congrArg some (funext fun a => Fin.ext ?_)
      have := heq a
      simp only
      omega
  next h =>
    constructor
    · intro heq; exact absurd heq (by simp)
    · intro heq
      exact absurd (fun a => by have := heq a; have := (t a).isLt; constructor <;> omega) h

/-- The operand's kept axes are the ones that are not inserted window axes. -/
theorem mem_sKept {s si u : Shape} (d : ScatterDims s si u) (a : Fin s.rank) : a ∈ d.sKept ↔ a ∉ d.insertedWindowDims := by
  simp [ScatterDims.sKept, Shape.kept, List.mem_filter, List.mem_finRange]

/-- On an inserted window axis an update has no window coordinate. -/
theorem window_of_inserted {s si u : Shape} (d : ScatterDims s si u) (j : u.Idx) (a : Fin s.rank)
    (ha : a ∈ d.insertedWindowDims) : d.window j a = 0 := by
  unfold ScatterDims.window
  rw [dif_neg (fun h => (mem_sKept d a).mp h ha)]

/-- scalar updates scattered along the one axis of a vector: update e lands on i iff its index word, read signed, is i -/
theorem resultIdx_vec {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (idx : IVec ⟨2, ![E, 1]⟩ w) (e : Fin E) (i : Fin M) :
    d.resultIdx? (ix1 e) idx = some (ix1 i) ↔ (idx (ix2 e (0 : Fin 1))).toInt = (i.val : ℤ) := by
  obtain ⟨uwd, iwd, sd, ivd, wf⟩ := d
  dsimp only at h1 h2 h3 h4
  subst h1 h2 h3 h4
  rw [resultIdx?_eq_some_iff]
  -- the one operand axis: inserted, so no window coordinate; the start is the index word
  have hs : ScatterDims.start (⟨[], [0], [0], 1, wf⟩ : ScatterDims ⟨1, ![M]⟩ ⟨2, ![E, 1]⟩ ⟨1, ![E]⟩) (ix1 e) idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw : ScatterDims.window (⟨[], [0], [0], 1, wf⟩ : ScatterDims ⟨1, ![M]⟩ ⟨2, ![E, 1]⟩ ⟨1, ![E]⟩) (ix1 e) 0 = 0 :=
    window_of_inserted _ _ _ (List.mem_singleton.mpr rfl)
  constructor
  · intro h
    have := h 0
    rw [hs, hw, Nat.cast_zero, add_zero] at this
    exact this
  · intro h a
    match a with
    | ⟨0, _⟩ =>
      show ScatterDims.start _ (ix1 e) idx 0 + ((ScatterDims.window _ (ix1 e) 0 : ℕ) : ℤ) = (i.val : ℤ)
      rw [hs, hw, h, Nat.cast_zero, add_zero]

/-- rows scattered into a matrix -/
theorem resultIdx_rows {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c' : Fin C) (i : Fin M) (c : Fin C) :
    d.resultIdx? (ix2 e c') idx = some (ix2 i c) ↔ (idx (ix2 e (0 : Fin 1))).toInt = (i.val : ℤ) ∧ c' = c := by
  obtain ⟨uwd, iwd, sd, ivd, wf⟩ := d
  dsimp only at h1 h2 h3 h4
  subst h1 h2 h3 h4
  rw [resultIdx?_eq_some_iff]
  -- the row axis: inserted, so no window coordinate; the start is the index word
  have hs0 : ScatterDims.start (⟨[1], [0], [0], 1, wf⟩ : ScatterDims ⟨2, ![M, C]⟩ ⟨2, ![E, 1]⟩ ⟨2, ![E, C]⟩) (ix2 e c') idx 0
      = (idx (ix2 e (0 : Fin 1))).toInt := by
    unfold ScatterDims.start
    rw [dif_pos (List.mem_singleton.mpr rfl)]
    congr 2
    funext b; refine Fin.ext ?_
    match b with
    | ⟨0, _⟩ => rfl
    | ⟨1, _⟩ => rfl
  have hw0 : ScatterDims.window (⟨[1], [0], [0], 1, wf⟩ : ScatterDims ⟨2, ![M, C]⟩ ⟨2, ![E, 1]⟩ ⟨2, ![E, C]⟩) (ix2 e c') 0 = 0 :=
    window_of_inserted _ _ _ (List.mem_singleton.mpr rfl)
  -- the column axis: the scatter index does not name it, so the start is 0; the window coordinate is the update's column
  have hs1 : ScatterDims.start (⟨[1], [0], [0], 1, wf⟩ : ScatterDims ⟨2, ![M, C]⟩ ⟨2, ![E, 1]⟩ ⟨2, ![E, C]⟩) (ix2 e c') idx 1 = 0 := by
    unfold ScatterDims.start
    rw [dif_neg (show (1 : Fin 2) ∉ ([0] : List (Fin 2)) by decide)]
  have hw1 : ScatterDims.window (⟨[1], [0], [0], 1, wf⟩ : ScatterDims ⟨2, ![M, C]⟩ ⟨2, ![E, 1]⟩ ⟨2, ![E, C]⟩) (ix2 e c') 1 = c'.val := by
    unfold ScatterDims.window
    rw [dif_pos ((mem_sKept _ _).mpr (show (1 : Fin 2) ∉ ([0] : List (Fin 2)) by decide))]
    rfl
  constructor
  · intro h
    have e0 := h 0
    have e1 := h 1
    rw [hs0, hw0, Nat.cast_zero, add_zero] at e0
    rw [hs1, hw1, zero_add] at e1
    exact ⟨e0, Fin.ext (Nat.cast_injective (R := ℤ) e1)⟩
  · rintro ⟨h, rfl⟩ a
    match a with
    | ⟨0, _⟩ =>
      show ScatterDims.start _ (ix2 e c') idx 0 + ((ScatterDims.window _ (ix2 e c') 0 : ℕ) : ℤ) = (i.val : ℤ)
      rw [hs0, hw0, h, Nat.cast_zero, add_zero]
    | ⟨1, _⟩ =>
      show ScatterDims.start _ (ix2 e c') idx 1 + ((ScatterDims.window _ (ix2 e c') 1 : ℕ) : ℤ) = (c'.val : ℤ)
      rw [hs1, hw1, zero_add]

/-- scalar updates scattered at (row, column) pairs of a square matrix -/
theorem resultIdx_points {M E w : ℕ} (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ w) (e : Fin E) (r k : Fin M) :
    d.resultIdx? (ix1 e) idx = some (ix2 r k)
      ↔ (idx (ix2 e (0 : Fin 2))).toInt = (r.val : ℤ) ∧ (idx (ix2 e (1 : Fin 2))).toInt = (k.val : ℤ) := by
  obtain ⟨uwd, iwd, sd, ivd, wf⟩ := d
  dsimp only at h1 h2 h3 h4
  subst h1 h2 h3 h4
  rw [resultIdx?_eq_some_iff]
  -- both operand axes are inserted (no window coordinate); axis a starts at component a of the update's index pair
  have hs0 : ScatterDims.start (⟨[], [0, 1], [0, 1], 1, wf⟩ : ScatterDims ⟨2, ![M, M]⟩ ⟨2, ![E, 2]⟩ ⟨1, ![E]⟩) (ix1 e) idx 0
      = (idx (ix2 e (0 : Fin 2))).toInt := by
    unfold ScatterDims.start
    rw [dif_pos (show (0 : Fin 2) ∈ ([0, 1] : List (Fin 2)) by decide)]
    congr 2
    funext b; refine Fin.ext ?_
    match b with
    | ⟨0, _⟩ => rfl
    | ⟨1, _⟩ => rfl
  have hs1 : ScatterDims.start (⟨[], [0, 1], [0, 1], 1, wf⟩ : ScatterDims ⟨2, ![M, M]⟩ ⟨2, ![E, 2]⟩ ⟨1, ![E]⟩) (ix1 e) idx 1
      = (idx (ix2 e (1 : Fin 2))).toInt := by
    unfold ScatterDims.start
    rw [dif_pos (show (1 : Fin 2) ∈ ([0, 1] : List (Fin 2)) by decide)]
    congr 2
    funext b; refine Fin.ext ?_
    match b with
    | ⟨0, _⟩ => rfl
    | ⟨1, _⟩ => rfl
  have hw0 : ScatterDims.window (⟨[], [0, 1], [0, 1], 1, wf⟩ : ScatterDims ⟨2, ![M, M]⟩ ⟨2, ![E, 2]⟩ ⟨1, ![E]⟩) (ix1 e) 0 = 0 :=
    window_of_inserted _ _ _ (show (0 : Fin 2) ∈ ([0, 1] : List (Fin 2)) by decide)
  have hw1 : ScatterDims.window (⟨[], [0, 1], [0, 1], 1, wf⟩ : ScatterDims ⟨2, ![M, M]⟩ ⟨2, ![E, 2]⟩ ⟨1, ![E]⟩) (ix1 e) 1 = 0 :=
    window_of_inserted _ _ _ (show (1 : Fin 2) ∈ ([0, 1] : List (Fin 2)) by decide)
  constructor
  · intro h
    have e0 := h 0
    have e1 := h 1
    rw [hs0, hw0, Nat.cast_zero, add_zero] at e0
    rw [hs1, hw1, Nat.cast_zero, add_zero] at e1
    exact ⟨e0, e1⟩
  · rintro ⟨h0, h1⟩ a
    match a with
    | ⟨0, _⟩ =>
      show ScatterDims.start _ (ix1 e) idx 0 + ((ScatterDims.window _ (ix1 e) 0 : ℕ) : ℤ) = (r.val : ℤ)
      rw [hs0, hw0, h0, Nat.cast_zero, add_zero]
    | ⟨1, _⟩ =>
      show ScatterDims.start _ (ix1 e) idx 1 + ((ScatterDims.window _ (ix1 e) 1 : ℕ) : ℤ) = (k.val : ℤ)
      rw [hs1, hw1, h1, Nat.cast_zero, add_zero]

/-- the float accumulating scatter of scalars into a vector, at Ideal, at an index -/
theorem scatterAdd_vec_apply {M E w : ℕ} (d : ScatterDims ⟨1, ![M]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![M]⟩ : Shape).Idx → EReal) (idx : IVec ⟨2, ![E, 1]⟩ w) (upd : (⟨1, ![E]⟩ : Shape).Idx → EReal) (i : Fin M) :
    Ideal.hostScatterAdd d x idx upd (ix1 i)
      = x (ix1 i) + ∑ e ∈ Finset.univ.filter (fun e : Fin E => (idx (ix2 e (0 : Fin 1))).toInt = (i.val : ℤ)), upd (ix1 e) := by
  unfold Ideal.hostScatterAdd
  refine congrArg (x (ix1 i) + ·) ?_
  -- the update indices that land on i correspond to their one coordinate
  refine Finset.sum_nbij' (fun j => (j 0 : Fin E)) (fun e => ix1 e) ?_ ?_ ?_ ?_ ?_
  · intro j hj
    obtain ⟨a, rfl⟩ : ∃ a : Fin E, j = ix1 a := ⟨j 0, eq_ix1 j⟩
    show a ∈ _
    exact Finset.mem_filter.mpr ⟨Finset.mem_univ _, (resultIdx_vec d h1 h2 h3 h4 idx a i).mp (Finset.mem_filter.mp hj).2⟩
  · intro e he
    exact Finset.mem_filter.mpr ⟨Finset.mem_univ _, (resultIdx_vec d h1 h2 h3 h4 idx e i).mpr (Finset.mem_filter.mp he).2⟩
  · intro j _
    obtain ⟨a, rfl⟩ : ∃ a : Fin E, j = ix1 a := ⟨j 0, eq_ix1 j⟩
    rfl
  · intro e _; rfl
  · intro j _
    obtain ⟨a, rfl⟩ : ∃ a : Fin E, j = ix1 a := ⟨j 0, eq_ix1 j⟩
    rfl

/-- the float accumulating scatter of rows into a matrix, at Ideal, at an index -/
theorem scatterAdd_rows_apply {M C E w : ℕ} (d : ScatterDims ⟨2, ![M, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![M, C]⟩ : Shape).Idx → EReal) (idx : IVec ⟨2, ![E, 1]⟩ w) (upd : (⟨2, ![E, C]⟩ : Shape).Idx → EReal)
    (i : Fin M) (c : Fin C) :
    Ideal.hostScatterAdd d x idx upd (ix2 i c)
      = x (ix2 i c) + ∑ e ∈ Finset.univ.filter (fun e : Fin E => (idx (ix2 e (0 : Fin 1))).toInt = (i.val : ℤ)), upd (ix2 e c) := by
  unfold Ideal.hostScatterAdd
  refine congrArg (x (ix2 i c) + ·) ?_
  -- an update element lands on (i, c) iff its row's index word is i and its column is c: the elements that do
  -- correspond to their rows, the column being fixed
  refine Finset.sum_nbij' (fun j => (j 0 : Fin E)) (fun e => ix2 e c) ?_ ?_ ?_ ?_ ?_
  · intro j hj
    obtain ⟨a, b, rfl⟩ : ∃ (a : Fin E) (b : Fin C), j = ix2 a b := ⟨j 0, j 1, eq_ix2 j⟩
    show a ∈ _
    exact Finset.mem_filter.mpr
      ⟨Finset.mem_univ _, ((resultIdx_rows d h1 h2 h3 h4 idx a b i c).mp (Finset.mem_filter.mp hj).2).1⟩
  · intro e he
    exact Finset.mem_filter.mpr
      ⟨Finset.mem_univ _, (resultIdx_rows d h1 h2 h3 h4 idx e c i c).mpr ⟨(Finset.mem_filter.mp he).2, rfl⟩⟩
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl
  · intro e _; rfl
  · intro j hj
    obtain ⟨a, b, rfl⟩ : ∃ (a : Fin E) (b : Fin C), j = ix2 a b := ⟨j 0, j 1, eq_ix2 j⟩
    obtain rfl : b = c := ((resultIdx_rows d h1 h2 h3 h4 idx a b i c).mp (Finset.mem_filter.mp hj).2).2
    rfl

/-- a row gather reads the operand at the row its index word names (when that word is in range) -/
theorem gather_rows_apply {α : Type} {M C E w : ℕ} (d : GatherDims ⟨2, ![M, C]⟩ ⟨2, ![E, 1]⟩ ⟨2, ![E, C]⟩)
    (h1 : d.offsetDims = [1]) (h2 : d.collapsedSliceDims = [0]) (h3 : d.operandBatchingDims = [])
    (h4 : d.startIndicesBatchingDims = [])
    (h5 : d.startIndexMap = [0]) (h6 : d.indexVectorDim = 1) (h7 : d.sliceSizes = ![1, C])
    (x : (⟨2, ![M, C]⟩ : Shape).Idx → α) (idx : IVec ⟨2, ![E, 1]⟩ w) (e : Fin E) (c : Fin C) (i : Fin M)
    (hi : (idx (ix2 e (0 : Fin 1))).toInt = (i.val : ℤ)) :
    Host.gather d x idx (ix2 e c) = x (ix2 i c) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    -- the row axis: collapsed, so no offset; the start is the index word, clamped into [0, M - 1]
    show GatherDims.start _ (ix2 e c) idx 0 + GatherDims.batchCoord _ (ix2 e c) 0 + GatherDims.offCoord _ (ix2 e c) 0 = i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![M, C]⟩ ⟨2, ![E, 1]⟩ ⟨2, ![E, C]⟩)
        (ix2 e c) ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi, hi, Int.toNat_natCast]
    show min i.val (M - 1) = i.val
    exact min_eq_left (by have := i.isLt; omega)
  | ⟨1, _⟩ =>
    -- the column axis: not in the start index map, so the start is 0; the offset coordinate is the result's column
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨show (1 : Fin 2) ∉ ([0] : List (Fin 2)) by decide, List.not_mem_nil⟩)]
    rfl

/-- The accumulating fold over a list of update positions, every update being 1: at each operand index, the start
    value plus one for every position of the list whose update lands there. -/
theorem foldl_addi_one {s si u : Shape} (d : ScatterDims s si u) {w v : ℕ} (idx : IVec si w) (upd : u.Idx → BitVec v)
    (hupd : ∀ j, upd j = 1) (L : List (Fin u.numel)) (r0 : s.Idx → BitVec v) (t : s.Idx) :
    L.foldl (fun r n =>
        match d.resultIdx? (u.rowMajor.symm n) idx with
        | some i => fun i' => if i' = i then IntOp.addi (r i) (upd (u.rowMajor.symm n)) else r i'
        | none => r) r0 t
      = r0 t + BitVec.ofNat v (L.countP (fun n => d.resultIdx? (u.rowMajor.symm n) idx = some t)) := by
  induction L generalizing r0 with
  | nil => simp
  | cons n L ih =>
    rw [List.foldl_cons, ih, List.countP_cons]
    cases hres : d.resultIdx? (u.rowMajor.symm n) idx with
    | none => simp
    | some i =>
      by_cases hi : t = i
      · subst hi
        simp [IntOp.addi, hupd, BitVec.ofNat_add]
        ac_rfl
      · have hi' : ¬ (i = t) := fun h => hi h.symm
        simp [hi, hi']

/-- the integer scatter of ones at (row, column) pairs into a zero matrix counts the pairs -/
theorem scatter_points_count {M E : ℕ} (hE : E < 2 ^ 31) (d : ScatterDims ⟨2, ![M, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (idx : IVec ⟨2, ![E, 2]⟩ 32) (r k : Fin M) :
    (Host.scatter d IntOp.addi (fun _ => (0 : BitVec 32)) idx (fun _ => (1 : BitVec 32)) (ix2 r k)).toInt
      = ((Finset.univ.filter (fun e : Fin E =>
          (idx (ix2 e (0 : Fin 2))).toInt = (r.val : ℤ) ∧ (idx (ix2 e (1 : Fin 2))).toInt = (k.val : ℤ))).card : ℤ) := by
  unfold Host.scatter
  refine (congrArg BitVec.toInt (foldl_addi_one d idx (fun _ => (1 : BitVec 32)) (fun _ => rfl) _ (fun _ => (0 : BitVec 32)) (ix2 r k))).trans ?_
  have h0 : ∀ y : BitVec 32, (0 : BitVec 32) + y = y := fun y => BitVec.zero_add y
  rw [h0]
  -- the positions whose update lands on (r, k), counted along the list of all positions, are as many as the
  -- updates whose index pair is (r, k): a position corresponds to its update's one coordinate
  have hcount : (List.finRange (⟨1, ![E]⟩ : Shape).numel).countP
        (fun n => d.resultIdx? ((⟨1, ![E]⟩ : Shape).rowMajor.symm n) idx = some (ix2 r k))
      = (Finset.univ.filter (fun e : Fin E =>
          (idx (ix2 e (0 : Fin 2))).toInt = (r.val : ℤ) ∧ (idx (ix2 e (1 : Fin 2))).toInt = (k.val : ℤ))).card := by
    rw [← List.Nodup.card_eq_countP (List.nodup_finRange _), List.toFinset_finRange]
    refine Finset.card_nbij' (fun n => (((⟨1, ![E]⟩ : Shape).rowMajor.symm n) 0 : Fin E))
      (fun e => (⟨1, ![E]⟩ : Shape).rowMajor (ix1 e)) ?_ ?_ ?_ ?_
    · intro n hn
      obtain ⟨a, ha⟩ : ∃ a : Fin E, (⟨1, ![E]⟩ : Shape).rowMajor.symm n = ix1 a := ⟨_, eq_ix1 _⟩
      have hn' := (Finset.mem_filter.mp hn).2
      rw [ha] at hn'
      show (((⟨1, ![E]⟩ : Shape).rowMajor.symm n) 0 : Fin E) ∈ _
      rw [ha]
      exact Finset.mem_filter.mpr ⟨Finset.mem_univ _, (resultIdx_points d h1 h2 h3 h4 idx a r k).mp hn'⟩
    · intro e he
      refine Finset.mem_filter.mpr ⟨Finset.mem_univ _, ?_⟩
      show d.resultIdx? ((⟨1, ![E]⟩ : Shape).rowMajor.symm ((⟨1, ![E]⟩ : Shape).rowMajor (ix1 e))) idx = _
      rw [Equiv.symm_apply_apply]
      exact (resultIdx_points d h1 h2 h3 h4 idx e r k).mpr (Finset.mem_filter.mp he).2
    · intro n _
      obtain ⟨a, ha⟩ : ∃ a : Fin E, (⟨1, ![E]⟩ : Shape).rowMajor.symm n = ix1 a := ⟨_, eq_ix1 _⟩
      show (⟨1, ![E]⟩ : Shape).rowMajor (ix1 (((⟨1, ![E]⟩ : Shape).rowMajor.symm n) 0 : Fin E)) = n
      rw [ha]
      show (⟨1, ![E]⟩ : Shape).rowMajor (ix1 a) = n
      rw [← ha, Equiv.apply_symm_apply]
    · intro e _
      show (((⟨1, ![E]⟩ : Shape).rowMajor.symm ((⟨1, ![E]⟩ : Shape).rowMajor (ix1 e))) 0 : Fin E) = e
      rw [Equiv.symm_apply_apply]
      rfl
  rw [hcount]
  -- at most E < 2 ^ 31 of them, so the 32-bit word of the count, read signed, is the count
  have hle : (Finset.univ.filter (fun e : Fin E =>
      (idx (ix2 e (0 : Fin 2))).toInt = (r.val : ℤ) ∧ (idx (ix2 e (1 : Fin 2))).toInt = (k.val : ℤ))).card ≤ E :=
    (Finset.card_filter_le _ _).trans (by simp)
  generalize (Finset.univ.filter (fun e : Fin E =>
      (idx (ix2 e (0 : Fin 2))).toInt = (r.val : ℤ) ∧ (idx (ix2 e (1 : Fin 2))).toInt = (k.val : ℤ))).card = c at hle ⊢
  have hc : (BitVec.ofNat 32 c).toNat = c := by
    rw [BitVec.toNat_ofNat]; exact Nat.mod_eq_of_lt (by omega)
  rw [BitVec.toInt_eq_toNat_of_lt (by rw [hc]; omega), hc]

end Cert.LibIndex

end
-- ==== Proof.LibPoints.lean ====
/-
  A scatter-add of scalars and a gather of scalars at (row, column) pairs, the pairs read off a rank-3 index array
  whose last axis holds the two coordinates: the dimension numbers of  x[r, k] += u  and  y = x[r, k]  with r, k
  arrays of one two-axis shape [B, T].  An update lands on (r, k) exactly when its pair of index words, read
  signed, is (r, k); the result of the gather at (b, t) is the operand at the pair of words at (b, t), when they are
  in range.
-/
import proofs.«128547_j60421599920187_1_alg».proof.Proof.LibIndex

noncomputable section

open scoped BigOperators

namespace Cert.LibPoints

open Idealize.ShloMosaic Idealize.ShloMosaic.ValueIdx

/-- update (b, t) lands on (r, k) iff its two index words, read signed, are r and k -/
theorem resultIdx_pairs {M N B T w : ℕ} (d : ScatterDims ⟨2, ![M, N]⟩ ⟨3, ![B, T, 2]⟩ ⟨2, ![B, T]⟩)
    (h1 : d.updateWindowDims = []) (h2 : d.insertedWindowDims = [0, 1]) (h3 : d.scatterDimsToOperandDims = [0, 1])
    (h4 : d.indexVectorDim = 2)
    (idx : IVec ⟨3, ![B, T, 2]⟩ w) (b : Fin B) (t : Fin T) (r : Fin M) (k : Fin N) :
    d.resultIdx? (ix2 b t) idx = some (ix2 r k)
      ↔ (idx (ix3 b t (0 : Fin 2))).toInt = (r.val : ℤ) ∧ (idx (ix3 b t (1 : Fin 2))).toInt = (k.val : ℤ) := by
  obtain ⟨uwd, iwd, sd, ivd, wf⟩ := d
  dsimp only at h1 h2 h3 h4
  subst h1 h2 h3 h4
  rw [LibIndex.resultIdx?_eq_some_iff]
  -- both operand axes are inserted (no window coordinate); axis a starts at component a of the update's index pair
  have hs0 : ScatterDims.start (⟨[], [0, 1], [0, 1], 2, wf⟩ : ScatterDims ⟨2, ![M, N]⟩ ⟨3, ![B, T, 2]⟩ ⟨2, ![B, T]⟩) (ix2 b t) idx 0
      = (idx (ix3 b t (0 : Fin 2))).toInt := by
    unfold ScatterDims.start
    rw [dif_pos (show (0 : Fin 2) ∈ ([0, 1] : List (Fin 2)) by decide)]
    congr 2
    funext c; refine Fin.ext ?_
    match c with
    | ⟨0, _⟩ => rfl
    | ⟨1, _⟩ => rfl
    | ⟨2, _⟩ => rfl
  have hs1 : ScatterDims.start (⟨[], [0, 1], [0, 1], 2, wf⟩ : ScatterDims ⟨2, ![M, N]⟩ ⟨3, ![B, T, 2]⟩ ⟨2, ![B, T]⟩) (ix2 b t) idx 1
      = (idx (ix3 b t (1 : Fin 2))).toInt := by
    unfold ScatterDims.start
    rw [dif_pos (show (1 : Fin 2) ∈ ([0, 1] : List (Fin 2)) by decide)]
    congr 2
    funext c; refine Fin.ext ?_
    match c with
    | ⟨0, _⟩ => rfl
    | ⟨1, _⟩ => rfl
    | ⟨2, _⟩ => rfl
  have hw0 : ScatterDims.window (⟨[], [0, 1], [0, 1], 2, wf⟩ : ScatterDims ⟨2, ![M, N]⟩ ⟨3, ![B, T, 2]⟩ ⟨2, ![B, T]⟩) (ix2 b t) 0 = 0 :=
    LibIndex.window_of_inserted _ _ _ (show (0 : Fin 2) ∈ ([0, 1] : List (Fin 2)) by decide)
  have hw1 : ScatterDims.window (⟨[], [0, 1], [0, 1], 2, wf⟩ : ScatterDims ⟨2, ![M, N]⟩ ⟨3, ![B, T, 2]⟩ ⟨2, ![B, T]⟩) (ix2 b t) 1 = 0 :=
    LibIndex.window_of_inserted _ _ _ (show (1 : Fin 2) ∈ ([0, 1] : List (Fin 2)) by decide)
  constructor
  · intro h
    have e0 := h 0
    have e1 := h 1
    rw [hs0, hw0, Nat.cast_zero, add_zero] at e0
    rw [hs1, hw1, Nat.cast_zero, add_zero] at e1
    exact ⟨e0, e1⟩
  · rintro ⟨h0, h1⟩ a
    match a with
    | ⟨0, _⟩ =>
      show ScatterDims.start _ (ix2 b t) idx 0 + ((ScatterDims.window _ (ix2 b t) 0 : ℕ) : ℤ) = (r.val : ℤ)
      rw [hs0, hw0, h0, Nat.cast_zero, add_zero]
    | ⟨1, _⟩ =>
      show ScatterDims.start _ (ix2 b t) idx 1 + ((ScatterDims.window _ (ix2 b t) 1 : ℕ) : ℤ) = (k.val : ℤ)
      rw [hs1, hw1, h1, Nat.cast_zero, add_zero]

/-- the float accumulating scatter of scalars at index pairs, at Ideal, at an entry -/
theorem scatterAdd_pairs_apply {M N B T w : ℕ} (d : ScatterDims ⟨2, ![M, N]⟩ ⟨3, ![B, T, 2]⟩ ⟨2, ![B, T]⟩)
    (h1 : d.updateWindowDims = []) (h2 : d.insertedWindowDims = [0, 1]) (h3 : d.scatterDimsToOperandDims = [0, 1])
    (h4 : d.indexVectorDim = 2)
    (x : (⟨2, ![M, N]⟩ : Shape).Idx → EReal) (idx : IVec ⟨3, ![B, T, 2]⟩ w) (upd : (⟨2, ![B, T]⟩ : Shape).Idx → EReal)
    (r : Fin M) (k : Fin N) :
    Ideal.hostScatterAdd d x idx upd (ix2 r k)
      = x (ix2 r k) + ∑ b : Fin B, ∑ t : Fin T,
          (if (idx (ix3 b t (0 : Fin 2))).toInt = (r.val : ℤ) ∧ (idx (ix3 b t (1 : Fin 2))).toInt = (k.val : ℤ)
            then upd (ix2 b t) else 0) := by
  unfold Ideal.hostScatterAdd
  refine congrArg (x (ix2 r k) + ·) ?_
  -- the sum over the updates that land on (r, k) is the sum over all updates of "the update if it lands there, else 0",
  -- taken row by row; landing there is a condition on the update's two index words
  rw [Finset.sum_filter, sum_idx2]
  refine Finset.sum_congr rfl fun b _ => Finset.sum_congr rfl fun t _ => ?_
  exact if_congr (resultIdx_pairs d h1 h2 h3 h4 idx b t r k) rfl rfl

/-- a gather of scalars at index pairs reads the operand at the pair its two index words name (when in range) -/
theorem gather_pairs_apply {α : Type} {M N B T w : ℕ} (d : GatherDims ⟨2, ![M, N]⟩ ⟨3, ![B, T, 2]⟩ ⟨2, ![B, T]⟩)
    (h1 : d.offsetDims = []) (h2 : d.collapsedSliceDims = [0, 1]) (h3 : d.operandBatchingDims = [])
    (h4 : d.startIndicesBatchingDims = [])
    (h5 : d.startIndexMap = [0, 1]) (h6 : d.indexVectorDim = 2) (h7 : d.sliceSizes = ![1, 1])
    (x : (⟨2, ![M, N]⟩ : Shape).Idx → α) (idx : IVec ⟨3, ![B, T, 2]⟩ w) (b : Fin B) (t : Fin T) (r : Fin M) (k : Fin N)
    (hr : (idx (ix3 b t (0 : Fin 2))).toInt = (r.val : ℤ)) (hk : (idx (ix3 b t (1 : Fin 2))).toInt = (k.val : ℤ)) :
    Host.gather d x idx (ix2 b t) = x (ix2 r k) := by
  obtain ⟨od, cd, ob, sb, sm, iv, ss, wf⟩ := d
  dsimp only at h1 h2 h3 h4 h5 h6 h7
  subst h1 h2 h3 h4 h5 h6 h7
  unfold Host.gather
  congr 1
  funext a
  refine Fin.ext ?_
  match a with
  | ⟨0, _⟩ =>
    -- the row axis: collapsed, so no offset; the start is the first index word, clamped into [0, M - 1]
    show GatherDims.start _ (ix2 b t) idx 0 + GatherDims.batchCoord _ (ix2 b t) 0 + GatherDims.offCoord _ (ix2 b t) 0 = r.val
    rw [GatherDims.batchCoord_eq_zero _ _ _ List.not_mem_nil,
      GatherDims.offCoord_eq_zero _ _ _ (fun h => ((GatherDims.mem_sKept _ _).mp h).1
        (show (0 : Fin 2) ∈ ([0, 1] : List (Fin 2)) by decide))]
    simp only [Nat.add_zero]
    unfold GatherDims.start
    rw [dif_pos (show (0 : Fin 2) ∈ ([0, 1] : List (Fin 2)) by decide)]
    have hsi : GatherDims.siIdx (⟨[], [0, 1], [], [], [0, 1], 2, ![1, 1], wf⟩ : GatherDims ⟨2, ![M, N]⟩ ⟨3, ![B, T, 2]⟩ ⟨2, ![B, T]⟩)
        (ix2 b t) ⟨List.idxOf (0 : Fin 2) [0, 1], List.idxOf_lt_length_iff.2 (show (0 : Fin 2) ∈ ([0, 1] : List (Fin 2)) by decide)⟩
          = ix3 b t (0 : Fin 2) := by
      funext c; refine Fin.ext ?_
      match c with
      | ⟨0, _⟩ => rfl
      | ⟨1, _⟩ => rfl
      | ⟨2, _⟩ => rfl
    rw [hsi, hr, Int.toNat_natCast]
    show min r.val (M - 1) = r.val
    exact min_eq_left (by have := r.isLt; omega)
  | ⟨1, _⟩ =>
    -- the column axis: likewise, with the second index word, clamped into [0, N - 1]
    show GatherDims.start _ (ix2 b t) idx 1 + GatherDims.batchCoord _ (ix2 b t) 1 + GatherDims.offCoord _ (ix2 b t) 1 = k.val
    rw [GatherDims.batchCoord_eq_zero _ _ _ List.not_mem_nil,
      GatherDims.offCoord_eq_zero _ _ _ (fun h => ((GatherDims.mem_sKept _ _).mp h).1
        (show (1 : Fin 2) ∈ ([0, 1] : List (Fin 2)) by decide))]
    simp only [Nat.add_zero]
    unfold GatherDims.start
    rw [dif_pos (show (1 : Fin 2) ∈ ([0, 1] : List (Fin 2)) by decide)]
    have hsi : GatherDims.siIdx (⟨[], [0, 1], [], [], [0, 1], 2, ![1, 1], wf⟩ : GatherDims ⟨2, ![M, N]⟩ ⟨3, ![B, T, 2]⟩ ⟨2, ![B, T]⟩)
        (ix2 b t) ⟨List.idxOf (1 : Fin 2) [0, 1], List.idxOf_lt_length_iff.2 (show (1 : Fin 2) ∈ ([0, 1] : List (Fin 2)) by decide)⟩
          = ix3 b t (1 : Fin 2) := by
      funext c; refine Fin.ext ?_
      match c with
      | ⟨0, _⟩ => rfl
      | ⟨1, _⟩ => rfl
      | ⟨2, _⟩ => rfl
    rw [hsi, hk, Int.toNat_natCast]
    show min k.val (N - 1) = k.val
    exact min_eq_left (by have := k.isLt; omega)

end Cert.LibPoints

end
-- ==== Proof.RefValue.lean ====
/-
  The reference's result is the decade-weighted loss of its two arguments.

  Its index array pairs each sample's batch row (an iota, made non-negative by a select that never fires) with the
  sample's decade (already in 0 … 63, so its select never fires either).  The scatter-add of ones at those pairs
  into a zero table is the histogram; the gather of the reciprocal table at the same pairs is each sample's weight;
  the two total sums over the [64, 524288, 1] array are double sums over rows and columns.
-/
import proofs.«128547_j60421599920187_1_alg».proof.Proof.RefImports
import proofs.«128547_j60421599920187_1_alg».proof.Proof.Spec
import proofs.«128547_j60421599920187_1_alg».proof.Proof.LibPoints
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Decade

/-! ## Words: a select that never fires -/

/-- A word that is not negative, read signed, is not below zero. -/
theorem slt_zero_of_nonneg (v : BitVec 32) (h : 0 ≤ v.toInt) : IntOp.cmpi .slt v 0#32 = 0#1 := by
  have hs : v.slt 0#32 = false := by
    unfold BitVec.slt
    rw [decide_eq_false_iff_not]
    have h0 : (0#32).toInt = 0 := by decide
    omega
  show BitVec.ofBool (v.slt 0#32) = 0#1
  rw [hs]; rfl

/-- The wrap-around of a negative index leaves a word that is not negative alone. -/
theorem wrap_of_nonneg (v z : BitVec 32) (h : 0 ≤ v.toInt) :
    Scalar.select (IntOp.cmpi .slt v 0#32) z v = v := by
  rw [slt_zero_of_nonneg v h]
  unfold Scalar.select
  rw [if_neg (by decide)]

/-- The word of a row number below 64, read signed, is the row number. -/
theorem rowWord_toInt (b : Fin 64) : (BitVec.ofNat 32 b.val).toInt = (b.val : ℤ) := by
  have hb := b.isLt
  have hn : (BitVec.ofNat 32 b.val).toNat = b.val := by
    rw [BitVec.toNat_ofNat, Nat.mod_eq_of_lt (by omega)]
  rw [BitVec.toInt_eq_toNat_of_lt (by omega), hn]

/-- … so it is not negative. -/
theorem rowWord_nonneg (n : Nat) (h : n < 64) : 0 ≤ (BitVec.ofNat 32 n).toInt := by
  rw [rowWord_toInt ⟨n, h⟩]; exact Int.natCast_nonneg _

/-! ## The decade array and the row array at an entry -/

/-- The reshape reads the trailing-unit array at the same row and column. -/
theorem idx_v5 (b : Fin 64) (t : Fin 524288) : idx_main_v5 (ix2 b t) = ix3 b t (0 : Fin 1) := by
  have hb := b.isLt
  have ht := t.isLt
  funext a
  match a with
  | ⟨0, _⟩ => apply Fin.ext; show (b.val * 524288 + t.val) / 524288 = b.val; omega
  | ⟨1, _⟩ => apply Fin.ext; show (b.val * 524288 + t.val) / 1 % 524288 = t.val; omega
  | ⟨2, _⟩ => rfl

/-- The clipped integer part at (b, t) is the decade word of the target there. -/
theorem v8_at (x1 : (⟨S64x524288x1, .f32⟩ : BufTy).Contents (Elt Ideal)) (b : Fin 64) (t : Fin 524288) :
    val_main_v8 (F := Ideal) x1 (ix2 b t) = dword (x1 (ix3 b t (0 : Fin 1))) := by
  rw [val_main_v8_apply, val_main_call0_v4_apply, val_main_call0_v3_apply, val_main_c_0_apply,
    val_main_call0_v2_apply, val_main_call0_v1_apply, val_main_call0_v0_apply, val_main_c_apply,
    val_main_v7_apply, val_main_v6_apply, val_main_v5_apply, val_main_v2_apply, val_main_v0_apply,
    val_main_v1_apply, val_main_cst_apply, idx_v5]
  rfl

/-- The decade word is not negative, so its wrap-around select returns it (first index chain). -/
theorem v21_at (x1 : (⟨S64x524288x1, .f32⟩ : BufTy).Contents (Elt Ideal)) (b : Fin 64) (t : Fin 524288) :
    val_main_v21 (F := Ideal) x1 (ix2 b t) = dword (x1 (ix3 b t (0 : Fin 1))) := by
  rw [val_main_v21_apply, val_main_v18_apply, val_main_v17_apply, val_main_c_4_apply, v8_at]
  exact wrap_of_nonneg _ _ (by rw [dword_toInt]; exact Int.natCast_nonneg _)

/-- The same for the second, separately printed index chain. -/
theorem v39_at (x1 : (⟨S64x524288x1, .f32⟩ : BufTy).Contents (Elt Ideal)) (b : Fin 64) (t : Fin 524288) :
    val_main_v39 (F := Ideal) x1 (ix2 b t) = dword (x1 (ix3 b t (0 : Fin 1))) := by
  rw [val_main_v39_apply, val_main_v36_apply, val_main_v35_apply, val_main_c_10_apply, v8_at]
  exact wrap_of_nonneg _ _ (by rw [dword_toInt]; exact Int.natCast_nonneg _)

/-- The row number's word at row b. -/
theorem v10_at (i : S64x1.Idx) : val_main_v10 (F := Ideal) i = BitVec.ofNat 32 (i 0).val := by
  rw [val_main_v10_apply, val_main_v9_apply]

/-- A row number is not negative, so its wrap-around select returns it (first chain). -/
theorem v16_at (i : S64x1.Idx) : val_main_v16 (F := Ideal) i = BitVec.ofNat 32 (i 0).val := by
  rw [val_main_v16_apply, val_main_v13_apply, val_main_v12_apply, val_main_c_2_apply, v10_at]
  exact wrap_of_nonneg _ _ (rowWord_nonneg _ (i 0).isLt)

/-- The same for the second chain. -/
theorem v34_at (i : S64x1.Idx) : val_main_v34 (F := Ideal) i = BitVec.ofNat 32 (i 0).val := by
  rw [val_main_v34_apply, val_main_v31_apply, val_main_v30_apply, val_main_c_8_apply, v10_at]
  exact wrap_of_nonneg _ _ (rowWord_nonneg _ (i 0).isLt)

/-- The row piece of the index array at (b, t, 0) is the word of b (first chain). -/
theorem v23_at (b : Fin 64) (t : Fin 524288) :
    val_main_v23 (F := Ideal) (ix3 b t (0 : Fin 1)) = BitVec.ofNat 32 b.val := by
  rw [val_main_v23_apply, val_main_v22_apply, v16_at]

/-- The same for the second chain. -/
theorem v41_at (b : Fin 64) (t : Fin 524288) :
    val_main_v41 (F := Ideal) (ix3 b t (0 : Fin 1)) = BitVec.ofNat 32 b.val := by
  rw [val_main_v41_apply, val_main_v40_apply, v34_at]

/-- The broadcast to a trailing unit axis reads the two-axis array at the same row and column. -/
theorem idx_unit (b : Fin 64) (t : Fin 524288) : idx_main_v24 (ix3 b t (0 : Fin 1)) = ix2 b t := by
  funext a
  match a with
  | ⟨0, _⟩ => rfl
  | ⟨1, _⟩ => rfl

/-- The decade piece of the index array at (b, t, 0) (first chain). -/
theorem v24_at (x1 : (⟨S64x524288x1, .f32⟩ : BufTy).Contents (Elt Ideal)) (b : Fin 64) (t : Fin 524288) :
    val_main_v24 (F := Ideal) x1 (ix3 b t (0 : Fin 1)) = dword (x1 (ix3 b t (0 : Fin 1))) := by
  rw [val_main_v24_apply, idx_unit, v21_at]

/-- The same for the second chain. -/
theorem v42_at (x1 : (⟨S64x524288x1, .f32⟩ : BufTy).Contents (Elt Ideal)) (b : Fin 64) (t : Fin 524288) :
    val_main_v42 (F := Ideal) x1 (ix3 b t (0 : Fin 1)) = dword (x1 (ix3 b t (0 : Fin 1))) := by
  rw [val_main_v42_apply, show idx_main_v42 (ix3 b t (0 : Fin 1)) = ix2 b t from idx_unit b t, v39_at]

/-! ## The index array: (row, decade) pairs -/

/-- The joined index array at (b, t, 0) is the row's word (first chain). -/
theorem v25_row (x1 : (⟨S64x524288x1, .f32⟩ : BufTy).Contents (Elt Ideal)) (b : Fin 64) (t : Fin 524288) :
    val_main_v25 (F := Ideal) x1 (ix3 b t (0 : Fin 2)) = BitVec.ofNat 32 b.val := by
  have hi : ∀ a : Fin S64x524288x1.rank,
      ((ix3 b t (0 : Fin 1) : S64x524288x1.Idx) a).val
        = ((ix3 b t (0 : Fin 2) : S64x524288x2.Idx) (a.cast rfl)).val := fun a =>
    match a with
    | ⟨0, _⟩ => rfl
    | ⟨1, _⟩ => rfl
    | ⟨2, _⟩ => rfl
  have h := concatenate_pair_apply_left (t := S64x524288x2) (s₁ := S64x524288x1) (s₂ := S64x524288x1)
    (2 : Fin 3) (val_main_v23 (F := Ideal)) (val_main_v24 (F := Ideal) x1)
    concatenates_S64x524288x1_S64x524288x1_S64x524288x2_d2 (ix3 b t (0 : Fin 2)) rfl (ix3 b t (0 : Fin 1)) hi
  exact h.trans (v23_at b t)

/-- The joined index array at (b, t, 1) is the target's decade word (first chain). -/
theorem v25_dec (x1 : (⟨S64x524288x1, .f32⟩ : BufTy).Contents (Elt Ideal)) (b : Fin 64) (t : Fin 524288) :
    val_main_v25 (F := Ideal) x1 (ix3 b t (1 : Fin 2)) = dword (x1 (ix3 b t (0 : Fin 1))) := by
  have hi : ∀ a : Fin S64x524288x1.rank, a.cast (rfl : S64x524288x1.rank = S64x524288x2.rank) ≠ (2 : Fin 3) →
      ((ix3 b t (0 : Fin 1) : S64x524288x1.Idx) a).val
        = ((ix3 b t (1 : Fin 2) : S64x524288x2.Idx) (a.cast rfl)).val := fun a ha =>
    match a, ha with
    | ⟨0, _⟩, _ => rfl
    | ⟨1, _⟩, _ => rfl
    | ⟨2, _⟩, ha => absurd rfl ha
  have h := concatenate_pair_apply_right (t := S64x524288x2) (s₁ := S64x524288x1) (s₂ := S64x524288x1)
    (2 : Fin 3) (val_main_v23 (F := Ideal)) (val_main_v24 (F := Ideal) x1)
    concatenates_S64x524288x1_S64x524288x1_S64x524288x2_d2 (ix3 b t (1 : Fin 2)) rfl rfl (ix3 b t (0 : Fin 1)) hi rfl
  exact h.trans (v24_at x1 b t)

/-- The second chain's joined index array at (b, t, 0). -/
theorem v43_row (x1 : (⟨S64x524288x1, .f32⟩ : BufTy).Contents (Elt Ideal)) (b : Fin 64) (t : Fin 524288) :
    val_main_v43 (F := Ideal) x1 (ix3 b t (0 : Fin 2)) = BitVec.ofNat 32 b.val := by
  have hi : ∀ a : Fin S64x524288x1.rank,
      ((ix3 b t (0 : Fin 1) : S64x524288x1.Idx) a).val
        = ((ix3 b t (0 : Fin 2) : S64x524288x2.Idx) (a.cast rfl)).val := fun a =>
    match a with
    | ⟨0, _⟩ => rfl
    | ⟨1, _⟩ => rfl
    | ⟨2, _⟩ => rfl
  have h := concatenate_pair_apply_left (t := S64x524288x2) (s₁ := S64x524288x1) (s₂ := S64x524288x1)
    (2 : Fin 3) (val_main_v41 (F := Ideal)) (val_main_v42 (F := Ideal) x1)
    concatenates_S64x524288x1_S64x524288x1_S64x524288x2_d2 (ix3 b t (0 : Fin 2)) rfl (ix3 b t (0 : Fin 1)) hi
  exact h.trans (v41_at b t)

/-- The second chain's joined index array at (b, t, 1). -/
theorem v43_dec (x1 : (⟨S64x524288x1, .f32⟩ : BufTy).Contents (Elt Ideal)) (b : Fin 64) (t : Fin 524288) :
    val_main_v43 (F := Ideal) x1 (ix3 b t (1 : Fin 2)) = dword (x1 (ix3 b t (0 : Fin 1))) := by
  have hi : ∀ a : Fin S64x524288x1.rank, a.cast (rfl : S64x524288x1.rank = S64x524288x2.rank) ≠ (2 : Fin 3) →
      ((ix3 b t (0 : Fin 1) : S64x524288x1.Idx) a).val
        = ((ix3 b t (1 : Fin 2) : S64x524288x2.Idx) (a.cast rfl)).val := fun a ha =>
    match a, ha with
    | ⟨0, _⟩, _ => rfl
    | ⟨1, _⟩, _ => rfl
    | ⟨2, _⟩, ha => absurd rfl ha
  have h := concatenate_pair_apply_right (t := S64x524288x2) (s₁ := S64x524288x1) (s₂ := S64x524288x1)
    (2 : Fin 3) (val_main_v41 (F := Ideal)) (val_main_v42 (F := Ideal) x1)
    concatenates_S64x524288x1_S64x524288x1_S64x524288x2_d2 (ix3 b t (1 : Fin 2)) rfl rfl (ix3 b t (0 : Fin 1)) hi rfl
  exact h.trans (v42_at x1 b t)

/-! ## The scatter-add is the histogram; the gather is the weight -/

/-- The scatter's dimension numbers are those of  x[r, k] += u : no window axes, both operand axes indexed, the pair
    of coordinates on the index array's last axis. -/
theorem scat_window : (scatter_S64x64_S64x524288x2_S64x524288_n_01_01_2).updateWindowDims = [] := rfl
theorem scat_inserted : (scatter_S64x64_S64x524288x2_S64x524288_n_01_01_2).insertedWindowDims = [0, 1] := rfl
theorem scat_operand : (scatter_S64x64_S64x524288x2_S64x524288_n_01_01_2).scatterDimsToOperandDims = [0, 1] := rfl
theorem scat_vector : (scatter_S64x64_S64x524288x2_S64x524288_n_01_01_2).indexVectorDim = 2 := rfl

/-- At the ideal values the count table is the exact accumulating scatter of the ones into the zeros. -/
theorem v27_def (x1 : (⟨S64x524288x1, .f32⟩ : BufTy).Contents (Elt Ideal)) :
    val_main_v27 (F := Ideal) x1
      = Ideal.hostScatterAdd scatter_S64x64_S64x524288x2_S64x524288_n_01_01_2 (val_main_v11 (F := Ideal))
          (val_main_v25 (F := Ideal) x1) (val_main_v26 (F := Ideal)) := by
  unfold val_main_v27 Host.scatterAdd
  rw [Ideal.hostScatterAdd_def]

/-- The count table at (r, k), as the scatter-add's sum over all updates: the zero table's entry plus a one for every
    sample whose pair of index words is (r, k). -/
theorem v27_sum (x1 : (⟨S64x524288x1, .f32⟩ : BufTy).Contents (Elt Ideal)) (r k : Fin 64) :
    val_main_v27 (F := Ideal) x1 (ix2 r k)
      = val_main_v11 (F := Ideal) (ix2 r k) + ∑ b : Fin 64, ∑ t : Fin 524288,
          (if (val_main_v25 (F := Ideal) x1 (ix3 b t (0 : Fin 2))).toInt = (r.val : ℤ)
              ∧ (val_main_v25 (F := Ideal) x1 (ix3 b t (1 : Fin 2))).toInt = (k.val : ℤ)
            then val_main_v26 (F := Ideal) (ix2 b t) else 0) :=
  (congrFun (v27_def x1) (ix2 r k)).trans
    (Cert.LibPoints.scatterAdd_pairs_apply scatter_S64x64_S64x524288x2_S64x524288_n_01_01_2
      scat_window scat_inserted scat_operand scat_vector
      (val_main_v11 (F := Ideal)) (val_main_v25 (F := Ideal) x1) (val_main_v26 (F := Ideal)) r k)

/-- A sample's pair of index words is (r, k) exactly when its row is r and its decade is k. -/
theorem pair_iff (x1 : (⟨S64x524288x1, .f32⟩ : BufTy).Contents (Elt Ideal)) (b r k : Fin 64) (t : Fin 524288) :
    ((val_main_v25 (F := Ideal) x1 (ix3 b t (0 : Fin 2))).toInt = (r.val : ℤ)
        ∧ (val_main_v25 (F := Ideal) x1 (ix3 b t (1 : Fin 2))).toInt = (k.val : ℤ))
      ↔ (b = r ∧ bin (flat x1 (ix2 b t)) = k) := by
  rw [v25_row, v25_dec, rowWord_toInt, dword_toInt]
  constructor
  · intro h
    exact ⟨Fin.ext (Int.ofNat_inj.mp h.1), Fin.ext (Int.ofNat_inj.mp h.2)⟩
  · intro h
    exact ⟨congrArg (fun v : Fin 64 => (v.val : ℤ)) h.1, congrArg (fun v : Fin 64 => (v.val : ℤ)) h.2⟩

/-- A double sum of indicators that name the row collapses to the row's own sum. -/
theorem sum_row_indicator (P : Fin 64 → Fin 524288 → Prop) [∀ b t, Decidable (P b t)] (r : Fin 64) :
    (∑ b : Fin 64, ∑ t : Fin 524288, (if b = r ∧ P b t then (1 : EReal) else 0))
      = ∑ t : Fin 524288, (if P r t then (1 : EReal) else 0) := by
  rw [Finset.sum_eq_single r
    (fun b _ hb => Finset.sum_eq_zero (fun t _ => if_neg (fun h => hb h.1)))
    (fun h => absurd (Finset.mem_univ r) h)]
  exact Finset.sum_congr rfl (fun t _ => if_congr ⟨fun h => h.2, fun h => ⟨rfl, h⟩⟩ rfl rfl)

/-- The count table at (r, k) is the histogram of row r at bin k. -/
theorem v27_at (x1 : (⟨S64x524288x1, .f32⟩ : BufTy).Contents (Elt Ideal)) (r k : Fin 64) :
    val_main_v27 (F := Ideal) x1 (ix2 r k) = hist (flat x1) r k := by
  rw [v27_sum, val_main_v11_apply, val_main_cst_1_apply, hist_eq,
    show (FloatOps.ofBits (F := Ideal) .f32 0x00000000#32 : EReal) = 0 from Ideal.ofBits_zero_f32, zero_add,
    ← sum_row_indicator (fun b t => bin (flat x1 (ix2 b t)) = k) r]
  refine Finset.sum_congr rfl (fun b _ => Finset.sum_congr rfl (fun t _ => ?_))
  rw [val_main_v26_apply, val_main_cst_6_apply,
    show (FloatOps.ofBits (F := Ideal) .f32 0x3F800000#32 : EReal) = 1 from Ideal.ofBits_one_f32]
  exact if_congr (pair_iff x1 b r k t) rfl rfl

/-- The table of reciprocal counts at (r, k). -/
theorem v29_at (x1 : (⟨S64x524288x1, .f32⟩ : BufTy).Contents (Elt Ideal)) (r k : Fin 64) :
    val_main_v29 (F := Ideal) x1 (ix2 r k)
      = FloatOps.hostDivf (F := Ideal) (φ := .f32) (FloatOps.ofBits .f32 0x3F800000#32) (hist (flat x1) r k) := by
  rw [val_main_v29_apply, val_main_v28_apply, val_main_cst_7_apply, v27_at]

/-- The gather's dimension numbers are those of  y = x[r, k] : no offset axes, both operand axes collapsed, no batching,
    the pair of coordinates on the index array's last axis, slices of one element. -/
theorem gath_offset : (gather_S64x64_S64x524288x2_S64x524288_n_01_n_n_01_2_11).offsetDims = [] := rfl
theorem gath_collapsed : (gather_S64x64_S64x524288x2_S64x524288_n_01_n_n_01_2_11).collapsedSliceDims = [0, 1] := rfl
theorem gath_opBatch : (gather_S64x64_S64x524288x2_S64x524288_n_01_n_n_01_2_11).operandBatchingDims = [] := rfl
theorem gath_ixBatch : (gather_S64x64_S64x524288x2_S64x524288_n_01_n_n_01_2_11).startIndicesBatchingDims = [] := rfl
theorem gath_map : (gather_S64x64_S64x524288x2_S64x524288_n_01_n_n_01_2_11).startIndexMap = [0, 1] := rfl
theorem gath_vector : (gather_S64x64_S64x524288x2_S64x524288_n_01_n_n_01_2_11).indexVectorDim = 2 := rfl
theorem gath_sizes : (gather_S64x64_S64x524288x2_S64x524288_n_01_n_n_01_2_11).sliceSizes = ![1, 1] := rfl

/-- The gathered array at (b, t) is the reciprocal table at the sample's row and decade. -/
theorem v44_read (x1 : (⟨S64x524288x1, .f32⟩ : BufTy).Contents (Elt Ideal)) (b : Fin 64) (t : Fin 524288) :
    val_main_v44 (F := Ideal) x1 (ix2 b t)
      = val_main_v29 (F := Ideal) x1 (ix2 b (bin (x1 (ix3 b t (0 : Fin 1))))) :=
  Cert.LibPoints.gather_pairs_apply gather_S64x64_S64x524288x2_S64x524288_n_01_n_n_01_2_11
    gath_offset gath_collapsed gath_opBatch gath_ixBatch gath_map gath_vector gath_sizes
    (val_main_v29 (F := Ideal) x1) (val_main_v43 (F := Ideal) x1) b t b (bin (x1 (ix3 b t (0 : Fin 1))))
    (by rw [v43_row, rowWord_toInt]) (by rw [v43_dec, dword_toInt]; rfl)

/-- The gathered weight of sample (b, t): the reciprocal count of its own row and decade. -/
theorem v44_at (x1 : (⟨S64x524288x1, .f32⟩ : BufTy).Contents (Elt Ideal)) (b : Fin 64) (t : Fin 524288) :
    val_main_v44 (F := Ideal) x1 (ix2 b t) = wgt (flat x1) (itab (flat x1)) b t := by
  rw [v44_read, v29_at, wgt_eq]
  exact (itab_own (flat x1) b t).symm

/-- The weight array with its trailing unit axis. -/
theorem v45_at (x1 : (⟨S64x524288x1, .f32⟩ : BufTy).Contents (Elt Ideal)) (b : Fin 64) (t : Fin 524288) :
    val_main_v45 (F := Ideal) x1 (ix3 b t (0 : Fin 1)) = wgt (flat x1) (itab (flat x1)) b t := by
  rw [val_main_v45_apply, show idx_main_v45 (ix3 b t (0 : Fin 1)) = ix2 b t from idx_unit b t, v44_at]

/-- The weighted squared error of sample (b, t). -/
theorem v46_at (x0 x1 : (⟨S64x524288x1, .f32⟩ : BufTy).Contents (Elt Ideal)) (b : Fin 64) (t : Fin 524288) :
    val_main_v46 (F := Ideal) x0 x1 (ix3 b t (0 : Fin 1))
      = sqerr (flat x0) (flat x1) b t * wgt (flat x1) (itab (flat x1)) b t := by
  rw [val_main_v46_apply, val_main_v4_apply, val_main_v3_apply, v45_at]
  rfl

/-! ## The two totals -/

/-- An index of the [64, 524288, 1] array is its row and its column: the last coordinate is always 0. -/
def idxEquivUnit : S64x524288x1.Idx ≃ Fin 64 × Fin 524288 where
  toFun i := (i 0, i 1)
  invFun p := ix3 p.1 p.2 (0 : Fin 1)
  left_inv i := by
    funext a
    match a with
    | ⟨0, _⟩ => rfl
    | ⟨1, _⟩ => rfl
    | ⟨2, h2⟩ =>
      apply Fin.ext
      have hlt : (i ⟨2, h2⟩).val < 1 := (i ⟨2, h2⟩).isLt
      show (0 : Nat) = (i ⟨2, h2⟩).val
      omega
  right_inv _ := rfl

/-- … so a sum over it is the double sum over rows and columns. -/
theorem sum_unit (f : S64x524288x1.Idx → EReal) :
    ∑ i, f i = ∑ b : Fin 64, ∑ t : Fin 524288, f (ix3 b t (0 : Fin 1)) := by
  rw [← Equiv.sum_comp idxEquivUnit.symm f, Fintype.sum_prod_type]
  rfl

/-- The first total is the weighted sum of squared errors. -/
theorem v47_eq (x0 x1 : (⟨S64x524288x1, .f32⟩ : BufTy).Contents (Elt Ideal)) (i : S_.Idx) :
    val_main_v47 (F := Ideal) x0 x1 i = num (flat x0) (flat x1) (itab (flat x1)) := by
  rw [val_main_v47_apply, val_main_cst_12_apply,
    show (FloatOps.ofBits (F := Ideal) .f32 0x00000000#32 : EReal) = 0 from Ideal.ofBits_zero_f32, zero_add, sum_unit]
  unfold num
  exact Finset.sum_congr rfl (fun b _ => Finset.sum_congr rfl (fun t _ => v46_at x0 x1 b t))

/-- The second total is the sum of the weights. -/
theorem v48_eq (x1 : (⟨S64x524288x1, .f32⟩ : BufTy).Contents (Elt Ideal)) (i : S_.Idx) :
    val_main_v48 (F := Ideal) x1 i = den (flat x1) (itab (flat x1)) := by
  rw [val_main_v48_apply, val_main_cst_13_apply,
    show (FloatOps.ofBits (F := Ideal) .f32 0x00000000#32 : EReal) = 0 from Ideal.ofBits_zero_f32, zero_add, sum_unit]
  unfold den
  exact Finset.sum_congr rfl (fun b _ => Finset.sum_congr rfl (fun t _ => v45_at x1 b t))

/-- The last stage is the loss. -/
theorem v50_eq (x0 x1 : (⟨S64x524288x1, .f32⟩ : BufTy).Contents (Elt Ideal)) :
    val_main_v50 (F := Ideal) x0 x1 = fun _ => loss (flat x0) (flat x1) := by
  funext i
  rw [val_main_v50_apply, val_main_v49_apply, v47_eq, v48_eq]
  rfl

/-- The reference run's result term, at Ideal, is the loss of the flattened arguments. -/
theorem ref_value (m : (ℓ : Loc nD τ sig) → Buf (Elt Ideal) ℓ) (c : Dev nD) :
    Cert.ReferenceIdeal.Value.res_main_v50 (F := Ideal) m c
      = fun _ => loss (flat (m ((c.tc : Thread nD τ).loc main_arg0))) (flat (m ((c.tc : Thread nD τ).loc main_arg1))) := by
  rw [val_main_v50_eq]
  exact v50_eq _ _

end Cert.ReferenceIdeal.RefValue

end
-- ==== Proof.lean ====
/-
  The certificate of the decade-weighted loss kernel against its reference.

  The kernel computes the loss in two passes over the data: a histogram pass that counts, per batch row, how many
  targets fall in each of 64 decades (one-hot rows summed tile by tile), and a loss pass that weights every squared
  error by the guarded reciprocal of its own bin's count and accumulates the weighted errors and the weights tile by
  tile; the host divides the two totals and takes the root.  The reference builds the histogram by a scatter-add,
  looks the weights up by a gather, and sums everything at once.  Over the extended reals both are the same function
  of the two argument arrays: the quantity `Cert.Decade.loss`.

  The three frames are the generated runs (the reference's with its result dropped); nothing was rewritten by the
  idealization, so `preserves` is trivial; the algebraic claim puts the two runs side by side at the loss of the
  arguments.
-/
import proofs.«128547_j60421599920187_1_alg».proof.Defs
import proofs.«128547_j60421599920187_1_alg».proof.Proof.Gen.Kernel
import proofs.«128547_j60421599920187_1_alg».proof.Proof.Gen.Kernel.Frame
import proofs.«128547_j60421599920187_1_alg».proof.Proof.Gen.KernelIdeal
import proofs.«128547_j60421599920187_1_alg».proof.Proof.Gen.KernelIdeal.Frame
import proofs.«128547_j60421599920187_1_alg».proof.Proof.Gen.ReferenceIdeal
import proofs.«128547_j60421599920187_1_alg».proof.Proof.Gen.Pre_finite_inputs
import proofs.«128547_j60421599920187_1_alg».proof.Proof.KernelValue
import proofs.«128547_j60421599920187_1_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both runs end at the loss of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Decade.loss
      (Cert.Decade.flat (m ((c.tc : Thread Cert.KernelIdeal.nD Cert.KernelIdeal.τ).loc Cert.KernelIdeal.main_arg0)))
      (Cert.Decade.flat (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.Value.kernel_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.ref_value m' c, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
